-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096 : Shape := ⟨2, ![32, 4096]⟩
abbrev S4096x4096 : Shape := ⟨2, ![4096, 4096]⟩
abbrev S4096 : Shape := ⟨1, ![4096]⟩
abbrev S131072 : Shape := ⟨1, ![131072]⟩
abbrev S_ : Shape := ⟨0, ![]⟩

class Facts : Prop where
  bcast_S_S32x4096 : S_.BroadcastsInDim S32x4096 (![] : Fin 0 → Fin S32x4096.rank)
  reducesTo_S32x4096_S_d0_1 : S32x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S131072 : S_.BroadcastsInDim S131072 (![] : Fin 0 → Fin S131072.rank)
  reducesTo_S131072_S_d0 : S131072.ReducesTo [0] S_

variable [Facts]

def fn_part1 {F : FTy → Type} [FloatOps F] (main_arg4 : FVec F S131072 .f32) (main_arg5 : FVec F S131072 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S131072 .f32 := Host.absf main_arg4
  let main_cst_6 : FVec F S_ .f32 := constant S_ .f32 0x7F800000#32
  let main_v20 : FVec F S131072 .f32 := broadcastInDim S131072 ![] bcast_S_S131072 main_cst_6
  let main_v21 : IVec S131072 1 := cmpf .olt main_v19 main_v20
  let main_c_7 : IVec S_ 1 := constantI S_ 1 1#1
  let main_v22 : IVec S_ 1 := (fun x v => Host.reduce IntOp.andi x v reducesTo_S131072_S_d0 h_S_) main_v21 main_c_7
  let main_v23 : IVec S_ 1 := andi main_v18 main_v22
  let main_v24 : FVec F S131072 .f32 := Host.absf main_arg5
  let main_cst_8 : FVec F S_ .f32 := constant S_ .f32 0x7F800000#32
  let main_v25 : FVec F S131072 .f32 := broadcastInDim S131072 ![] bcast_S_S131072 main_cst_8
  let main_v26 : IVec S131072 1 := cmpf .olt main_v24 main_v25
  let main_c_9 : IVec S_ 1 := constantI S_ 1 1#1
  let main_v27 : IVec S_ 1 := (fun x v => Host.reduce IntOp.andi x v reducesTo_S131072_S_d0 h_S_) main_v26 main_c_9
  let main_v28 : IVec S_ 1 := andi main_v23 main_v27
  main_v28

def fn {F : FTy → Type} [FloatOps F] (main_arg0 : FVec F S32x4096 .f32) (main_arg1 : FVec F S4096x4096 .f32) (main_arg2 : FVec F S4096 .f32) (main_arg3 : FVec F S4096x4096 .f32) (main_arg4 : FVec F S131072 .f32) (main_arg5 : FVec F S131072 .f32) : IVec S_ 1 :=
  let main_v0 : FVec F S32x4096 .f32 := Host.absf main_arg0
  let main_cst : FVec F S_ .f32 := constant S_ .f32 0x7F800000#32
  let main_v1 : FVec F S32x4096 .f32 := broadcastInDim S32x4096 ![] bcast_S_S32x4096 main_cst
  let main_v2 : IVec S32x4096 1 := cmpf .olt main_v0 main_v1
  let main_c : IVec S_ 1 := constantI S_ 1 1#1
  let main_v3 : IVec S_ 1 := (fun x v => Host.reduce IntOp.andi x v reducesTo_S32x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_v13 main_v16
-- ==== Kernel.lean ====
abbrev S32x4096 : Shape := ⟨2, ![32, 4096]⟩
abbrev S4096x4096 : Shape := ⟨2, ![4096, 4096]⟩
abbrev S4096 : Shape := ⟨1, ![4096]⟩
abbrev S131072 : Shape := ⟨1, ![131072]⟩
abbrev S4096x32 : Shape := ⟨2, ![4096, 32]⟩
abbrev S1x4096 : Shape := ⟨2, ![1, 4096]⟩
abbrev S32x1024 : Shape := ⟨2, ![32, 1024]⟩
abbrev S512x1024 : Shape := ⟨2, ![512, 1024]⟩
abbrev S8x512 : Shape := ⟨2, ![8, 512]⟩
abbrev S1x512 : Shape := ⟨2, ![1, 512]⟩
abbrev S32x512 : Shape := ⟨2, ![32, 512]⟩
abbrev S512 : Shape := ⟨1, ![512]⟩
abbrev S512x1 : Shape := ⟨2, ![512, 1]⟩
abbrev S512x128 : Shape := ⟨2, ![512, 128]⟩

abbrev nBuf : Space → Nat
  | .hbm => 12
  | .vmem => 15
  | .smem => 0
  | _ => 0

abbrev bufTy : (tb : Table) → Fin (tcTables nBuf tb) → BufTy
  | .hbm, ⟨0, _⟩ => ⟨S32x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S131072, .f32⟩
  | .hbm, ⟨5, _⟩ => ⟨S131072, .f32⟩
  | .hbm, ⟨6, _⟩ => ⟨S4096x32, .f32⟩
  | .hbm, ⟨7, _⟩ => ⟨S32x4096, .f32⟩
  | .hbm, ⟨8, _⟩ => ⟨S4096x32, .f32⟩
  | .hbm, ⟨9, _⟩ => ⟨S32x4096, .f32⟩
  | .hbm, ⟨10, _⟩ => ⟨S1x4096, .f32⟩
  | .hbm, ⟨11, _⟩ => ⟨S32x4096, .f32⟩
  | .local _ .vmem, ⟨0, _⟩ => ⟨S32x1024, .f32⟩
  | .local _ .vmem, ⟨1, _⟩ => ⟨S32x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S1x512, .f32⟩
  | .local _ .vmem, ⟨11, _⟩ => ⟨S1x512, .f32⟩
  | .local _ .vmem, ⟨12, _⟩ => ⟨S32x512, .f32⟩
  | .local _ .vmem, ⟨13, _⟩ => ⟨S32x512, .f32⟩
  | .local _ .vmem, ⟨14, _⟩ => ⟨S32x512, .f32⟩
  | _, _ => ⟨S32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v509 : BitVec 1 := Scalar.cmpi .eq arg1 c3_i32
  let v510 : BitVec 32 := Scalar.extui v509
  let c0_i32_200 : BitVec 32 := 0#32
  let v511 : BitVec 1 := Scalar.cmpi .ne v510 c0_i32_200
  v511

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S131072_S4096x32 : S131072.ShapeCasts S4096x32
  transposes_S4096x32_S32x4096_1_0 : S4096x32.Transposes [1, 0] S32x4096
  shapeCasts_S4096_S1x4096 : S4096.ShapeCasts S1x4096
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S8x512_S1x512_0_0 : ∀ a, (![0, 0] : Fin 2 → Nat) a + S1x512.size a ≤ S8x512.size a
  h_S1x512 : 0 < S1x512.numel
  shapeCasts_S1x512_S512 : S1x512.ShapeCasts S512
  shapeCasts_S512_S512x1 : S512.ShapeCasts S512x1
  inb_S512x1024_S512x128_0_0 : ∀ a, (![0, 0] : Fin 2 → Nat) a + S512x128.size a ≤ S512x1024.size a
  h_S512x128 : 0 < S512x128.numel
  reduces_S512x128_S512 : S512x128.Reduces [1] S512
  broadcasts_S512x1_S512x128 : S512x1.Broadcasts S512x128
  inb_S8x512_S1x512_1_0 : ∀ a, (![1, 0] : Fin 2 → Nat) a + S1x512.size a ≤ S8x512.size a
  inb_S512x1024_S512x128_0_128 : ∀ a, (![0, 128] : Fin 2 → Nat) a + S512x128.size a ≤ S512x1024.size a
  inb_S8x512_S1x512_2_0 : ∀ a, (![2, 0] : Fin 2 → Nat) a + S1x512.size a ≤ S8x512.size a
  inb_S512x1024_S512x128_0_256 : ∀ a, (![0, 256] : Fin 2 → Nat) a + S512x128.size a ≤ S512x1024.size a
  inb_S8x512_S1x512_3_0 : ∀ a, (![3, 0] : Fin 2 → Nat) a + S1x512.size a ≤ S8x512.size a
  inb_S512x1024_S512x128_0_384 : ∀ a, (![0, 384] : Fin 2 → Nat) a + S512x128.size a ≤ S512x1024.size a
  inb_S8x512_S1x512_4_0 : ∀ a, (![4, 0] : Fin 2 → Nat) a + S1x512.size a ≤ S8x512.size a
  inb_S512x1024_S512x128_0_512 : ∀ a, (![0, 512] : Fin 2 → Nat) a + S512x128.size a ≤ S512x1024.size a
  inb_S8x512_S1x512_5_0 : ∀ a, (![5, 0] : Fin 2 → Nat) a + S1x512.size a ≤ S8x512.size a
  inb_S512x1024_S512x128_0_640 : ∀ a, (![0, 640] : Fin 2 → Nat) a + S512x128.size a ≤ S512x1024.size a
  inb_S8x512_S1x512_6_0 : ∀ a, (![6, 0] : Fin 2 → Nat) a + S1x512.size a ≤ S8x512.size a
  inb_S512x1024_S512x128_0_768 : ∀ a, (![0, 768] : Fin 2 → Nat) a + S512x128.size a ≤ S512x1024.size a
  inb_S8x512_S1x512_7_0 : ∀ a, (![7, 0] : Fin 2 → Nat) a + S1x512.size a ≤ S8x512.size a
  inb_S512x1024_S512x128_0_896 : ∀ a, (![0, 896] : Fin 2 → Nat) a + S512x128.size a ≤ S512x1024.size a
  concatenates_S512x128_S512x128_S512x128_S512x128_S512x128_S512x128_S512x128_S512x128_S512x1024_d1 : Shape.Concatenates [S512x128, S512x128, S512x128, S512x128, S512x128, S512x128, S512x128, S512x128] S512x1024 1
  bitsLt_bf16_f32 : FTy.bits .bf16 < FTy.bits .f32
  inb_S32x1024_S32x1024_0_0 : ∀ a, (![0, 0] : Fin 2 → Nat) a + S32x1024.size a ≤ S32x1024.size a
  h_S32x1024 : 0 < S32x1024.numel
  inb_S1x512_S1x512_0_0 : ∀ a, (![0, 0] : Fin 2 → Nat) a + S1x512.size a ≤ S1x512.size a
  shapeCasts_S1x512_S1x512 : S1x512.ShapeCasts S1x512
  broadcasts_S1x512_S32x512 : S1x512.Broadcasts S32x512
  dot_S32x1024_S512x1024_S32x512_1_1_0_0_n_n_wf : DotDims.WF S32x1024 S512x1024 S32x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1024.size a ≤ S32x4096.size a
  hwx0_0 : ∀ i : grid0.Coords, EltTy.bits .f32 = 32 ∨ (Rect.block (s := S32x4096) S32x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x4096.size a
  hwx0_2 : ∀ i : grid0.Coords, EltTy.bits .f32 = 32 ∨ (Rect.block (s := S4096x4096) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x512.size a ≤ S32x4096.size a
  hwx0_3 : ∀ i : grid0.Coords, EltTy.bits .f32 = 32 ∨ (Rect.block (s := S32x4096) S8x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x512.size a ≤ S32x4096.size a
  hwx0_4 : ∀ i : grid0.Coords, EltTy.bits .f32 = 32 ∨ (Rect.block (s := S32x4096) S8x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x4096.size a
  hwx0_5 : ∀ i : grid0.Coords, EltTy.bits .f32 = 32 ∨ (Rect.block (s := S1x4096) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x512.size a ≤ S32x4096.size a
  hwx0_6 : ∀ i : grid0.Coords, EltTy.bits .f32 = 32 ∨ (Rect.block (s := S32x4096) S32x512.size (cc0_transform_6 i) (hinb0_6 i)).WholeWords (EltTy.packing .f32)

variable [Facts₀]

def dot_S32x1024_S512x1024_S32x512_1_1_0_0_n_n : DotDims S32x1024 S512x1024 S32x512 where
  lhsContracting := [1]
  rhsContracting := [1]
  lhsNonContracting := [0]
  rhsNonContracting := [0]
  lhsBatch := []
  rhsBatch := []
  wf := dot_S32x1024_S512x1024_S32x512_1_1_0_0_n_n_wf

abbrev win0_0 : Pipeline.Window sig grid0 :=
  Pipeline.Window.ofSpec (Memref.whole main_arg0) S32x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S8x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S32x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S32x4096 : Shape := ⟨2, ![32, 4096]⟩
abbrev S4096x4096 : Shape := ⟨2, ![4096, 4096]⟩
abbrev S4096 : Shape := ⟨1, ![4096]⟩
abbrev S131072 : Shape := ⟨1, ![131072]⟩
abbrev S_ : Shape := ⟨0, ![]⟩
abbrev S131072x128 : Shape := ⟨2, ![131072, 128]⟩
abbrev S131072x1 : Shape := ⟨2, ![131072, 1]⟩
abbrev S1x4096 : Shape := ⟨2, ![1, 4096]⟩

abbrev nBuf : Space → Nat
  | .hbm => 96
  | .vmem => 0
  | .smem => 0
  | _ => 0

abbrev bufTy : (tb : Table) → Fin (tcTables nBuf tb) → BufTy
  | .hbm, ⟨0, _⟩ => ⟨S32x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S131072, .f32⟩
  | .hbm, ⟨5, _⟩ => ⟨S131072, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S131072, .f32⟩
  | .hbm, ⟨10, _⟩ => ⟨S131072, .f32⟩
  | .hbm, ⟨11, _⟩ => ⟨S_, .f32⟩
  | .hbm, ⟨12, _⟩ => ⟨S131072, .f32⟩
  | .hbm, ⟨13, _⟩ => ⟨S131072, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S131072, .f32⟩
  | .hbm, ⟨18, _⟩ => ⟨S131072, .f32⟩
  | .hbm, ⟨19, _⟩ => ⟨S_, .f32⟩
  | .hbm, ⟨20, _⟩ => ⟨S131072, .f32⟩
  | .hbm, ⟨21, _⟩ => ⟨S131072, .f32⟩
  | .hbm, ⟨22, _⟩ => ⟨S131072x128, .f32⟩
  | .hbm, ⟨23, _⟩ => ⟨S131072x128, .f32⟩
  | .hbm, ⟨24, _⟩ => ⟨S_, .f32⟩
  | .hbm, ⟨25, _⟩ => ⟨S131072, .f32⟩
  | .hbm, ⟨26, _⟩ => ⟨S_, .f32⟩
  | .hbm, ⟨27, _⟩ => ⟨S131072, .f32⟩
  | .hbm, ⟨28, _⟩ => ⟨S131072, .f32⟩
  | .hbm, ⟨29, _⟩ => ⟨S_, .f32⟩
  | .hbm, ⟨30, _⟩ => ⟨S131072, .f32⟩
  | .hbm, ⟨31, _⟩ => ⟨S131072, .f32⟩
  | .hbm, ⟨32, _⟩ => ⟨S131072, .f32⟩
  | .hbm, ⟨33, _⟩ => ⟨S_, .f32⟩
  | .hbm, ⟨34, _⟩ => ⟨S131072, .f32⟩
  | .hbm, ⟨35, _⟩ => ⟨S_, .f32⟩
  | .hbm, ⟨36, _⟩ => ⟨S131072, .f32⟩
  | .hbm, ⟨37, _⟩ => ⟨S131072, .f32⟩
  | .hbm, ⟨38, _⟩ => ⟨S_, .f32⟩
  | .hbm, ⟨39, _⟩ => ⟨S131072, .f32⟩
  | .hbm, ⟨40, _⟩ => ⟨S131072, .f32⟩
  | .hbm, ⟨41, _⟩ => ⟨S131072, .f32⟩
  | .hbm, ⟨42, _⟩ => ⟨S131072, .f32⟩
  | .hbm, ⟨43, _⟩ => ⟨S131072, .f32⟩
  | .hbm, ⟨44, _⟩ => ⟨S_, .f32⟩
  | .hbm, ⟨45, _⟩ => ⟨S131072, .f32⟩
  | .hbm, ⟨46, _⟩ => ⟨S131072, .i1⟩
  | .hbm, ⟨47, _⟩ => ⟨S_, .f32⟩
  | .hbm, ⟨48, _⟩ => ⟨S131072, .f32⟩
  | .hbm, ⟨49, _⟩ => ⟨S131072, .i1⟩
  | .hbm, ⟨50, _⟩ => ⟨S131072, .i1⟩
  | .hbm, ⟨51, _⟩ => ⟨S_, .f32⟩
  | .hbm, ⟨52, _⟩ => ⟨S_, .f32⟩
  | .hbm, ⟨53, _⟩ => ⟨S131072, .f32⟩
  | .hbm, ⟨54, _⟩ => ⟨S131072, .f32⟩
  | .hbm, ⟨55, _⟩ => ⟨S_, .f32⟩
  | .hbm, ⟨56, _⟩ => ⟨S_, .f32⟩
  | .hbm, ⟨57, _⟩ => ⟨S131072, .f32⟩
  | .hbm, ⟨58, _⟩ => ⟨S131072, .f32⟩
  | .hbm, ⟨59, _⟩ => ⟨S131072, .f32⟩
  | .hbm, ⟨60, _⟩ => ⟨S_, .f32⟩
  | .hbm, ⟨61, _⟩ => ⟨S131072, .f32⟩
  | .hbm, ⟨62, _⟩ => ⟨S131072, .f32⟩
  | .hbm, ⟨63, _⟩ => ⟨S131072, .f32⟩
  | .hbm, ⟨64, _⟩ => ⟨S131072, .f32⟩
  | .hbm, ⟨65, _⟩ => ⟨S131072, .f32⟩
  | .hbm, ⟨66, _⟩ => ⟨S131072, .f32⟩
  | .hbm, ⟨67, _⟩ => ⟨S131072, .f32⟩
  | .hbm, ⟨68, _⟩ => ⟨S131072x1, .f32⟩
  | .hbm, ⟨69, _⟩ => ⟨S131072x1, .f32⟩
  | .hbm, ⟨70, _⟩ => ⟨S131072x128, .f32⟩
  | .hbm, ⟨71, _⟩ => ⟨S131072x128, .f32⟩
  | .hbm, ⟨72, _⟩ => ⟨S131072x128, .f32⟩
  | .hbm, ⟨73, _⟩ => ⟨S131072x128, .f32⟩
  | .hbm, ⟨74, _⟩ => ⟨S131072x128, .f32⟩
  | .hbm, ⟨75, _⟩ => ⟨S131072x128, .f32⟩
  | .hbm, ⟨76, _⟩ => ⟨S131072x128, .f32⟩
  | .hbm, ⟨77, _⟩ => ⟨S131072x128, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S131072x128, .f32⟩
  | .hbm, ⟨82, _⟩ => ⟨S131072x128, .f32⟩
  | .hbm, ⟨83, _⟩ => ⟨S_, .f32⟩
  | .hbm, ⟨84, _⟩ => ⟨S131072x128, .f32⟩
  | .hbm, ⟨85, _⟩ => ⟨S131072x128, .f32⟩
  | .hbm, ⟨86, _⟩ => ⟨S131072x128, .f32⟩
  | .hbm, ⟨87, _⟩ => ⟨S131072x128, .f32⟩
  | .hbm, ⟨88, _⟩ => ⟨S131072x128, .f32⟩
  | .hbm, ⟨89, _⟩ => ⟨S131072x128, .f32⟩
  | .hbm, ⟨90, _⟩ => ⟨S4096x4096, .f32⟩
  | .hbm, ⟨91, _⟩ => ⟨S4096x4096, .f32⟩
  | .hbm, ⟨92, _⟩ => ⟨S32x4096, .f32⟩
  | .hbm, ⟨93, _⟩ => ⟨S1x4096, .f32⟩
  | .hbm, ⟨94, _⟩ => ⟨S32x4096, .f32⟩
  | .hbm, ⟨95, _⟩ => ⟨S32x4096, .f32⟩
  | _, _ => ⟨S32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_cst_1 : Ref sig .tc := ⟨.hbm, 14, rfl⟩
abbrev main_cst_2 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst_3 : Ref sig .tc := ⟨.hbm, 24, rfl⟩
abbrev main_v4 : Ref sig .tc := ⟨.hbm, 25, rfl⟩
abbrev main_cst_4 : Ref sig .tc := ⟨.hbm, 26, rfl⟩
abbrev main_v5 : Ref sig .tc := ⟨.hbm, 27, rfl⟩
abbrev main_v6 : Ref sig .tc := ⟨.hbm, 28, rfl⟩
abbrev main_cst_5 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst_6 : Ref sig .tc := ⟨.hbm, 33, rfl⟩
abbrev main_v10 : Ref sig .tc := ⟨.hbm, 34, rfl⟩
abbrev main_cst_7 : Ref sig .tc := ⟨.hbm, 35, rfl⟩
abbrev main_v11 : Ref sig .tc := ⟨.hbm, 36, rfl⟩
abbrev main_v12 : Ref sig .tc := ⟨.hbm, 37, rfl⟩
abbrev main_cst_8 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_9 : Ref sig .tc := ⟨.hbm, 44, rfl⟩
abbrev main_v18 : Ref sig .tc := ⟨.hbm, 45, rfl⟩
abbrev main_v19 : Ref sig .tc := ⟨.hbm, 46, rfl⟩
abbrev main_cst_10 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst_11 : Ref sig .tc := ⟨.hbm, 51, rfl⟩
abbrev main_call2_v0 : Ref sig .tc := ⟨.hbm, 52, rfl⟩
abbrev main_call2_v1 : Ref sig .tc := ⟨.hbm, 53, rfl⟩
abbrev main_v23 : Ref sig .tc := ⟨.hbm, 54, rfl⟩
abbrev main_cst_12 : Ref sig .tc := ⟨.hbm, 55, rfl⟩
abbrev main_call3_v0 : Ref sig .tc := ⟨.hbm, 56, rfl⟩
abbrev main_call3_v1 : Ref sig .tc := ⟨.hbm, 57, rfl⟩
abbrev main_v24 : Ref sig .tc := ⟨.hbm, 58, rfl⟩
abbrev main_v25 : Ref sig .tc := ⟨.hbm, 59, rfl⟩
abbrev main_cst_13 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_cst_14 : Ref sig .tc := ⟨.hbm, 78, rfl⟩
abbrev main_cst_15 : Ref sig .tc := ⟨.hbm, 79, rfl⟩
abbrev main_call6_v0 : Ref sig .tc := ⟨.hbm, 80, rfl⟩
abbrev main_call6_v1 : Ref sig .tc := ⟨.hbm, 81, rfl⟩
abbrev main_call6_v2 : Ref sig .tc := ⟨.hbm, 82, rfl⟩
abbrev main_call6_v3 : Ref sig .tc := ⟨.hbm, 83, rfl⟩
abbrev main_call6_v4 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  shapeCasts_S4096x4096_S131072x128 : S4096x4096.ShapeCasts S131072x128
  reducesTo_S131072x128_S131072_d1 : S131072x128.ReducesTo [1] S131072
  h_S_ : 0 < S_.numel
  bcast_S131072_S131072x1_0 : S131072.BroadcastsInDim S131072x1 (![0] : Fin 1 → Fin S131072x1.rank)
  bcast_S131072x1_S131072x128_0_1 : S131072x1.BroadcastsInDim S131072x128 (![0, 1] : Fin 2 → Fin S131072x128.rank)
  bcast_S_S131072x128 : S_.BroadcastsInDim S131072x128 (![] : Fin 0 → Fin S131072x128.rank)
  shapeCasts_S131072x128_S4096x4096 : S131072x128.ShapeCasts S4096x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S32x4096_0_1 : S1x4096.BroadcastsInDim S32x4096 (![0, 1] : Fin 2 → Fin S32x4096.rank)
  dot_S32x4096_S4096x4096_S32x4096_1_0_0_1_n_n_wf : DotDims.WF S32x4096 S4096x4096 S32x4096 [1] [0] [0] [1] [] []

variable [Facts₀]

def dot_S32x4096_S4096x4096_S32x4096_1_0_0_1_n_n : DotDims S32x4096 S4096x4096 S32x4096 where
  lhsContracting := [1]
  rhsContracting := [0]
  lhsNonContracting := [0]
  rhsNonContracting := [1]
  lhsBatch := []
  rhsBatch := []
  wf := dot_S32x4096_S4096x4096_S32x4096_1_0_0_1_n_n_wf

class Facts : Prop extends Facts₀ where

variable [Facts]
-- ==== Proof.KernelTerms.lean ====
/-
  The kernel body's pure terms, named: the eight groups' dequantized 512 × 128 blocks and the point's 32 × 512
  partial product, each as the composition of the generated payloads it is (the body's 737 statements are cut by
  count, so each group is a differently cut chain of payloads), over the loads of the four input blocks.
-/
import proofs.«106327_j33122787787467_1_alg».proof.Proof.Gen.KernelIdeal.Frame

set_option maxRecDepth 16384

noncomputable section

namespace Cert.KernelIdeal.Terms

open Cert.KernelIdeal Cert.KernelIdeal.Gen Idealize.ShloMosaic Idealize.ShloMosaic.TcCoe

variable {F : FTy → Type} [FloatOps F]

/-! ## The loads: columns `128·g … 128·g + 127` of the weight and offset blocks, row `g` of the scale blocks -/

abbrev wLd0 (x : Vec F S512x1024 .f32) : Vec F S512x128 .f32 := View.ld x (Rect.unit ![0, 0] S512x128.size inb_S512x1024_S512x128_0_0)
abbrev wLd1 (x : Vec F S512x1024 .f32) : Vec F S512x128 .f32 := View.ld x (Rect.unit ![0, 128] S512x128.size inb_S512x1024_S512x128_0_128)
abbrev wLd2 (x : Vec F S512x1024 .f32) : Vec F S512x128 .f32 := View.ld x (Rect.unit ![0, 256] S512x128.size inb_S512x1024_S512x128_0_256)
abbrev wLd3 (x : Vec F S512x1024 .f32) : Vec F S512x128 .f32 := View.ld x (Rect.unit ![0, 384] S512x128.size inb_S512x1024_S512x128_0_384)
abbrev wLd4 (x : Vec F S512x1024 .f32) : Vec F S512x128 .f32 := View.ld x (Rect.unit ![0, 512] S512x128.size inb_S512x1024_S512x128_0_512)
abbrev wLd5 (x : Vec F S512x1024 .f32) : Vec F S512x128 .f32 := View.ld x (Rect.unit ![0, 640] S512x128.size inb_S512x1024_S512x128_0_640)
abbrev wLd6 (x : Vec F S512x1024 .f32) : Vec F S512x128 .f32 := View.ld x (Rect.unit ![0, 768] S512x128.size inb_S512x1024_S512x128_0_768)
abbrev wLd7 (x : Vec F S512x1024 .f32) : Vec F S512x128 .f32 := View.ld x (Rect.unit ![0, 896] S512x128.size inb_S512x1024_S512x128_0_896)
abbrev sLd0 (x : Vec F S8x512 .f32) : Vec F S1x512 .f32 := View.ld x (Rect.unit ![0, 0] S1x512.size inb_S8x512_S1x512_0_0)
abbrev sLd1 (x : Vec F S8x512 .f32) : Vec F S1x512 .f32 := View.ld x (Rect.unit ![1, 0] S1x512.size inb_S8x512_S1x512_1_0)
abbrev sLd2 (x : Vec F S8x512 .f32) : Vec F S1x512 .f32 := View.ld x (Rect.unit ![2, 0] S1x512.size inb_S8x512_S1x512_2_0)
abbrev sLd3 (x : Vec F S8x512 .f32) : Vec F S1x512 .f32 := View.ld x (Rect.unit ![3, 0] S1x512.size inb_S8x512_S1x512_3_0)
abbrev sLd4 (x : Vec F S8x512 .f32) : Vec F S1x512 .f32 := View.ld x (Rect.unit ![4, 0] S1x512.size inb_S8x512_S1x512_4_0)
abbrev sLd5 (x : Vec F S8x512 .f32) : Vec F S1x512 .f32 := View.ld x (Rect.unit ![5, 0] S1x512.size inb_S8x512_S1x512_5_0)
abbrev sLd6 (x : Vec F S8x512 .f32) : Vec F S1x512 .f32 := View.ld x (Rect.unit ![6, 0] S1x512.size inb_S8x512_S1x512_6_0)
abbrev sLd7 (x : Vec F S8x512 .f32) : Vec F S1x512 .f32 := View.ld x (Rect.unit ![7, 0] S1x512.size inb_S8x512_S1x512_7_0)

/-! ## The groups -/

/-- Group 0's dequantized block. -/
def grp0 (x1 x2 : Vec F S512x1024 .f32) (x3 x4 : Vec F S8x512 .f32) : FVec F S512x128 .f32 :=
  k0_pay9 (wLd0 x1) (wLd0 x2) (k0_pay6 (sLd0 x3) (sLd0 x4) (wLd0 x1)) (k0_pay7 (sLd0 x3) (sLd0 x4) (wLd0 x1)) k0_pay8

/-- Group 1's dequantized block. -/
def grp1 (x1 x2 : Vec F S512x1024 .f32) (x3 x4 : Vec F S8x512 .f32) : FVec F S512x128 .f32 :=
  k0_pay21 (k0_pay18 (k0_pay10 (sLd1 x3)) (k0_pay11 (sLd1 x4)) (wLd1 x1)) (k0_pay19 (k0_pay10 (sLd1 x3)) (k0_pay11 (sLd1 x4)) (wLd1 x1))
    (k0_pay20 (k0_pay10 (sLd1 x3)) (k0_pay11 (sLd1 x4)) (wLd1 x1) (wLd1 x2))

/-- Group 2's dequantized block. -/
def grp2 (x1 x2 : Vec F S512x1024 .f32) (x3 x4 : Vec F S8x512 .f32) : FVec F S512x128 .f32 :=
  k0_pay28 (wLd2 x1) (wLd2 x2) (k0_pay24 (sLd2 x3) (sLd2 x4) (wLd2 x1)) (k0_pay25 (sLd2 x3) (sLd2 x4) (wLd2 x1))
    (k0_pay26 (sLd2 x3) (sLd2 x4) (wLd2 x1)) (k0_pay27 (sLd2 x3) (sLd2 x4) (wLd2 x1))

/-- Group 3's dequantized block. -/
def grp3 (x1 x2 : Vec F S512x1024 .f32) (x3 x4 : Vec F S8x512 .f32) : FVec F S512x128 .f32 :=
  k0_pay31 (k0_pay29 (sLd3 x3)) (k0_pay30 (sLd3 x4)) (wLd3 x1) (wLd3 x2)

/-- Group 4's dequantized block. -/
def grp4 (x1 x2 : Vec F S512x1024 .f32) (x3 x4 : Vec F S8x512 .f32) : FVec F S512x128 .f32 :=
  k0_pay38 (wLd4 x1) (wLd4 x2) (k0_pay34 (sLd4 x3) (sLd4 x4) (wLd4 x1)) (k0_pay36 (sLd4 x3) (sLd4 x4) (wLd4 x1))
    (k0_pay37 (sLd4 x3) (sLd4 x4) (wLd4 x1))

/-- Group 5's dequantized block. -/
def grp5 (x1 x2 : Vec F S512x1024 .f32) (x3 x4 : Vec F S8x512 .f32) : FVec F S512x128 .f32 :=
  k0_pay42 (k0_pay39 (sLd5 x3)) (k0_pay40 (sLd5 x4)) (wLd5 x1) (wLd5 x2) (k0_pay41 (wLd5 x1))

/-- Group 6's dequantized block. -/
def grp6 (x1 x2 : Vec F S512x1024 .f32) (x3 x4 : Vec F S8x512 .f32) : FVec F S512x128 .f32 :=
  k0_pay51 (wLd6 x1) (wLd6 x2) (k0_pay49 (k0_pay43 (sLd6 x3)) (sLd6 x4) (wLd6 x1)) (k0_pay50 (k0_pay43 (sLd6 x3)) (sLd6 x4) (wLd6 x1))

/-- The point's partial product: the eight groups side by side (the last computed inside the product's own payload),
    multiplied from the left by the `x` block, onto a zero accumulator. -/
def partialK (x0 : Vec F S32x1024 .f32) (x1 x2 : Vec F S512x1024 .f32) (x3 x4 : Vec F S8x512 .f32) : FVec F S32x512 .f32 :=
  k0_pay57 (grp0 x1 x2 x3 x4) (grp1 x1 x2 x3 x4) (grp2 x1 x2 x3 x4) (grp3 x1 x2 x3 x4) (grp4 x1 x2 x3 x4) (grp5 x1 x2 x3 x4)
    (grp6 x1 x2 x3 x4) (k0_pay52 (sLd7 x3)) (k0_pay53 (sLd7 x4)) (wLd7 x1) (wLd7 x2) (k0_pay54 (wLd7 x1)) (k0_pay55 (wLd7 x1))
    k0_pay56 x0

/-- Group 7's dequantized block as the product's payload computes it from the values handed to it: the clamped scales
    plus one, the group minimum and maximum already taken, the zero column. -/
def tail7 (v443 : FVec F S512x1 .f32) (v450 : FVec F S512x1 .f32) (v451 : Vec F S512x128 .f32) (v452 : Vec F S512x128 .f32)
    (v454 : FVec F S512x1 .f32) (v456 : FVec F S512x1 .f32) (v457 : FVec F S512x1 .f32) : FVec F S512x128 .f32 :=
  have v458 : FVec F S512x1 .f32 := minimumf v454 v457
  have cst_182 : F .f32 := Scalar.ofBits .f32 0x3F800000#32
  have v459 : FVec F S512x1 .f32 := broadcast S512x1 cst_182
  have v460 : FVec F S512x1 .f32 := addf v443 v459
  have v461 : FVec F S512x1 .f32 := mulf v458 v460
  have cst_183 : F .f32 := Scalar.ofBits .f32 0x00000000#32
  have v462 : FVec F S512x1 .f32 := broadcast S512x1 cst_183
  have v463 : FVec F S512x1 .f32 := maximumf v456 v462
  have cst_184 : F .f32 := Scalar.ofBits .f32 0x3F800000#32
  have v464 : FVec F S512x1 .f32 := broadcast S512x1 cst_184
  have v465 : FVec F S512x1 .f32 := addf v450 v464
  have v466 : FVec F S512x1 .f32 := mulf v463 v465
  have v467 : FVec F S512x1 .f32 := maximumf v466 v461
  have v468 : FVec F S512x1 .f32 := minimumf v466 v461
  have cst_185 : F .f32 := Scalar.ofBits .f32 0x00000000#32
  have v469 : FVec F S512x1 .f32 := broadcast S512x1 cst_185
  have v470 : IVec S512x1 1 := cmpf .oeq v468 v469
  have cst_186 : F .f32 := Scalar.ofBits .f32 0x00000000#32
  have v471 : FVec F S512x1 .f32 := broadcast S512x1 cst_186
  have v472 : IVec S512x1 1 := cmpf .oeq v467 v471
  have v473 : IVec S512x1 1 := andi v470 v472
  have cst_187 : F .f32 := Scalar.ofBits .f32 0xBF800000#32
  have v474 : FVec F S512x1 .f32 := broadcast S512x1 cst_187
  have v475 : FVec F S512x1 .f32 := select v473 v474 v468
  have cst_188 : F .f32 := Scalar.ofBits .f32 0x3F800000#32
  have v476 : FVec F S512x1 .f32 := broadcast S512x1 cst_188
  have v477 : FVec F S512x1 .f32 := select v473 v476 v467
  have v478 : FVec F S512x1 .f32 := subf v477 v475
  have cst_189 : F .f32 := Scalar.ofBits .f32 0x41700000#32
  have v479 : FVec F S512x1 .f32 := broadcast S512x1 cst_189
  have v480 : FVec F S512x1 .f32 := divf v478 v479
  have cst_190 : F .f32 := Scalar.ofBits .f32 0x00000000#32
  have v481 : FVec F S512x1 .f32 := broadcast S512x1 cst_190
  have v482 : FVec F S512x1 .f32 := subf v481 v475
  have v483 : FVec F S512x1 .f32 := divf v482 v480
  have v484 : FVec F S512x1 .f32 := roundeven v483
  have v485 : FVec F S512x128 .f32 := broadcastTo S512x128 v480 broadcasts_S512x1_S512x128
  have v486 : FVec F S512x128 .f32 := divf v451 v485
  have v487 : FVec F S512x128 .f32 := addf v486 v452
  have v488 : FVec F S512x128 .f32 := roundeven v487
  have v489 : FVec F S512x128 .f32 := broadcastTo S512x128 v484 broadcasts_S512x1_S512x128
  have v490 : FVec F S512x128 .f32 := addf v488 v489
  have cst_191 : F .f32 := Scalar.ofBits .f32 0x00000000#32
  have cst_192 : F .f32 := Scalar.ofBits .f32 0x41700000#32
  have v491 : FVec F S512x128 .f32 := broadcast S512x128 cst_191
  have v492 : FVec F S512x128 .f32 := maximumf v491 v490
  have v493 : FVec F S512x128 .f32 := broadcast S512x128 cst_192
  have v494 : FVec F S512x128 .f32 := minimumf v493 v492
  have v495 : FVec F S512x128 .f32 := broadcastTo S512x128 v484 broadcasts_S512x1_S512x128
  have v496 : FVec F S512x128 .f32 := subf v494 v495
  have v497 : FVec F S512x128 .f32 := broadcastTo S512x128 v480 broadcasts_S512x1_S512x128
  have v498 : FVec F S512x128 .f32 := mulf v497 v496
  v498

/-- Group 7's dequantized block over the four input blocks. -/
def grp7 (x1 x2 : Vec F S512x1024 .f32) (x3 x4 : Vec F S8x512 .f32) : FVec F S512x128 .f32 :=
  tail7 (k0_pay52 (sLd7 x3)) (k0_pay53 (sLd7 x4)) (wLd7 x1) (wLd7 x2) (k0_pay54 (wLd7 x1)) (k0_pay55 (wLd7 x1)) k0_pay56

/-- The eight groups side by side: the 512 × 1024 quantized block. -/
def catK (x1 x2 : Vec F S512x1024 .f32) (x3 x4 : Vec F S8x512 .f32) : FVec F S512x1024 .f32 :=
  concatenate S512x1024 1 [⟨S512x128, grp0 x1 x2 x3 x4⟩, ⟨S512x128, grp1 x1 x2 x3 x4⟩, ⟨S512x128, grp2 x1 x2 x3 x4⟩, ⟨S512x128, grp3 x1 x2 x3 x4⟩,
    ⟨S512x128, grp4 x1 x2 x3 x4⟩, ⟨S512x128, grp5 x1 x2 x3 x4⟩, ⟨S512x128, grp6 x1 x2 x3 x4⟩, ⟨S512x128, grp7 x1 x2 x3 x4⟩]
    concatenates_S512x128_S512x128_S512x128_S512x128_S512x128_S512x128_S512x128_S512x128_S512x1024_d1

/-- The partial product is the matrix product of the `x` block with the quantized block, contracted over the 1024
    columns, onto a zero accumulator (the changes of float format are part of the printed term). -/
theorem partialK_eq (x0 : Vec F S32x1024 .f32) (x1 x2 : Vec F S512x1024 .f32) (x3 x4 : Vec F S8x512 .f32) :
    partialK x0 x1 x2 x3 x4
      = matmul dot_S32x1024_S512x1024_S32x512_1_1_0_0_n_n none (truncf .bf16 x0 bitsLt_bf16_f32)
          (truncf .bf16 (catK x1 x2 x3 x4) bitsLt_bf16_f32) (constant S32x512 .f32 0x00000000#32) := rfl

end Cert.KernelIdeal.Terms

end
-- ==== Proof.Pieces.lean ====
/-
  What each control case of the body leaves in the carried accumulator and in the output block, as pure terms:
  the accumulator after a point is the point's partial product added to what it held before (to zeros at a run's
  first point), and at a run's last point the output block is the accumulator plus the bias row.
-/
import proofs.«106327_j33122787787467_1_alg».proof.Proof.KernelTerms
import Idealize.ShloMosaic.Lib.Pipeline.Value
import Idealize.ShloMosaic.Lib.Tactic

set_option maxRecDepth 16384

noncomputable section

namespace Cert.KernelIdeal.Pieces

open Cert.KernelIdeal Cert.KernelIdeal.Gen Cert.KernelIdeal.Terms Idealize.ShloMosaic Idealize.ShloMosaic.TcCoe Idealize.ShloMosaic.Tactic

variable {F : FTy → Type} [FloatOps F]

theorem hz : (![0, 0] : Fin 2 → Nat) = fun _ => 0 := funext fun a => by fin_cases a <;> rfl

/-- A run's first point zeroes the accumulator and adds its partial product. -/
theorem soutA (c : Dev nD) (i : grid0.Coords) (arg2 : Memref sig .tc .vmem S32x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S8x512 .f32) (harg5 : arg5.IsWhole) (arg6 : Memref sig .tc .vmem S8x512 .f32) (harg6 : arg6.IsWhole) (arg7 : Memref sig .tc .vmem S1x512 .f32) (harg7 : arg7.IsWhole) (arg8 : Memref sig .tc .vmem S32x512 .f32) (harg8 : arg8.IsWhole) (arg9 : Memref sig .tc .vmem S32x512 .f32) (harg9 : arg9.IsWhole) (hc0 : cond0_0 i) (hc1 : ¬cond0_1 i) (x0 : Vec F S32x1024 .f32) (x1 : Vec F S512x1024 .f32) (x2 : Vec F S512x1024 .f32) (x3 : Vec F S8x512 .f32) (x4 : Vec F S8x512 .f32) (x5 : Vec F S1x512 .f32) :
    sout0_A_0 c i arg2 harg2 arg3 harg3 arg4 harg4 arg5 harg5 arg6 harg6 arg7 harg7 arg8 harg8 arg9 harg9 hc0 hc1 x0 x1 x2 x3 x4 x5 = k0_pay1 (partialK x0 x1 x2 x3 x4) k0_pay3 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S32x512) hz, View.readCov_unit_zero (S := S32x512) _ hz]
  simp only [View.readAt_eq_ld, harg2.read_unread, harg3.read_unread, harg4.read_unread, harg5.read_unread, harg6.read_unread,
    harg7.read_unread, harg9.read_unread, View.ld_unit_zero (S := S32x1024) hz, View.ld_unit_zero (S := S32x512) hz, View.ld_unit_zero (S := S1x512) hz,
    View.readCov_unit_zero (S := S32x512) _ hz]
  rfl

/-- A middle point of a run adds its partial product to the accumulator. -/
theorem soutB (c : Dev nD) (i : grid0.Coords) (arg2 : Memref sig .tc .vmem S32x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S8x512 .f32) (harg5 : arg5.IsWhole) (arg6 : Memref sig .tc .vmem S8x512 .f32) (harg6 : arg6.IsWhole) (arg7 : Memref sig .tc .vmem S1x512 .f32) (harg7 : arg7.IsWhole) (arg8 : Memref sig .tc .vmem S32x512 .f32) (harg8 : arg8.IsWhole) (arg9 : Memref sig .tc .vmem S32x512 .f32) (harg9 : arg9.IsWhole) (hc0 : ¬cond0_0 i) (hc1 : ¬cond0_1 i) (x0 : Vec F S32x1024 .f32) (x1 : Vec F S512x1024 .f32) (x2 : Vec F S512x1024 .f32) (x3 : Vec F S8x512 .f32) (x4 : Vec F S8x512 .f32) (x5 : Vec F S1x512 .f32) (xs0 : Vec F S32x512 .f32) :
    sout0_B_0 c i arg2 harg2 arg3 harg3 arg4 harg4 arg5 harg5 arg6 harg6 arg7 harg7 arg8 harg8 arg9 harg9 hc0 hc1 x0 x1 x2 x3 x4 x5 xs0 = k0_pay1 (partialK x0 x1 x2 x3 x4) xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 x5 xs0)]
  unfold kernelRun0_B
  dsimp only
  sl_unfold_words
  rw [View.canon_unit_zero hz]
  simp only [View.readAt_eq_ld, harg2.read_unread, harg3.read_unread, harg4.read_unread, harg5.read_unread, harg6.read_unread,
    harg7.read_unread, harg9.read_unread, View.ld_unit_zero (S := S32x1024) hz, View.ld_unit_zero (S := S32x512) hz, View.ld_unit_zero (S := S1x512) hz,
    View.readCov_unit_zero (S := S32x512) _ hz]
  rfl

/-- A run's last point adds its partial product to the accumulator as well … -/
theorem soutC (c : Dev nD) (i : grid0.Coords) (arg2 : Memref sig .tc .vmem S32x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S8x512 .f32) (harg5 : arg5.IsWhole) (arg6 : Memref sig .tc .vmem S8x512 .f32) (harg6 : arg6.IsWhole) (arg7 : Memref sig .tc .vmem S1x512 .f32) (harg7 : arg7.IsWhole) (arg8 : Memref sig .tc .vmem S32x512 .f32) (harg8 : arg8.IsWhole) (arg9 : Memref sig .tc .vmem S32x512 .f32) (harg9 : arg9.IsWhole) (hc0 : ¬cond0_0 i) (hc1 : cond0_1 i) (x0 : Vec F S32x1024 .f32) (x1 : Vec F S512x1024 .f32) (x2 : Vec F S512x1024 .f32) (x3 : Vec F S8x512 .f32) (x4 : Vec F S8x512 .f32) (x5 : Vec F S1x512 .f32) (xs0 : Vec F S32x512 .f32) :
    sout0_C_0 c i arg2 harg2 arg3 harg3 arg4 harg4 arg5 harg5 arg6 harg6 arg7 harg7 arg8 harg8 arg9 harg9 hc0 hc1 x0 x1 x2 x3 x4 x5 xs0 = k0_pay1 (partialK x0 x1 x2 x3 x4) xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz]
  simp only [View.readAt_eq_ld, harg2.read_unread, harg3.read_unread, harg4.read_unread, harg5.read_unread, harg6.read_unread,
    harg7.read_unread, harg9.read_unread, View.ld_unit_zero (S := S32x1024) hz, View.ld_unit_zero (S := S32x512) hz, View.ld_unit_zero (S := S1x512) hz,
    View.readCov_unit_zero (S := S32x512) _ hz]
  rfl

/-- … and stores the accumulator plus the bias row into the output block. -/
theorem outC (c : Dev nD) (i : grid0.Coords) (arg2 : Memref sig .tc .vmem S32x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S8x512 .f32) (harg5 : arg5.IsWhole) (arg6 : Memref sig .tc .vmem S8x512 .f32) (harg6 : arg6.IsWhole) (arg7 : Memref sig .tc .vmem S1x512 .f32) (harg7 : arg7.IsWhole) (arg8 : Memref sig .tc .vmem S32x512 .f32) (harg8 : arg8.IsWhole) (arg9 : Memref sig .tc .vmem S32x512 .f32) (harg9 : arg9.IsWhole) (hc0 : ¬cond0_0 i) (hc1 : cond0_1 i) (x0 : Vec F S32x1024 .f32) (x1 : Vec F S512x1024 .f32) (x2 : Vec F S512x1024 .f32) (x3 : Vec F S8x512 .f32) (x4 : Vec F S8x512 .f32) (x5 : Vec F S1x512 .f32) (xs0 : Vec F S32x512 .f32) :
    out0_C_6 c i arg2 harg2 arg3 harg3 arg4 harg4 arg5 harg5 arg6 harg6 arg7 harg7 arg8 harg8 arg9 harg9 hc0 hc1 x0 x1 x2 x3 x4 x5 xs0 = k0_pay2 (k0_pay1 (partialK x0 x1 x2 x3 x4) xs0) x5 := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz]
  simp only [View.readAt_eq_ld, harg2.read_unread, harg3.read_unread, harg4.read_unread, harg5.read_unread, harg6.read_unread,
    harg7.read_unread, harg9.read_unread, View.ld_unit_zero (S := S32x1024) hz, View.ld_unit_zero (S := S32x512) hz, View.ld_unit_zero (S := S1x512) hz,
    View.readCov_unit_zero (S := S32x512) _ hz]
  rfl

end Cert.KernelIdeal.Pieces

end
-- ==== Proof.QuantSpec.lean ====
/-
  What both programs compute, as functions on the extended reals.

  A weight row of 4096 entries is cut into 32 groups of 128. For a group with minimum `gmin`, maximum `gmax` and the two
  learned scales `mn`, `mx` (each clamped to [-1, 0]) the range ends are
      a = min(gmin, 0) · (clamp mn + 1),   b = max(gmax, 0) · (clamp mx + 1),
  `lo = min(b, a)`, `hi = max(b, a)`, replaced by -1 and 1 when both are 0; the step is `(hi - lo) / 15`, the zero point
  `round(-lo / step)`, and an entry `w` with its rounding offset `v` becomes
      step · (clip(round(w / step + v) + zp, 0, 15) - zp).
  The result is `x · wqᵀ + bias`.

  The two programs differ in two spellings only. One writes `round(y)` and `0 - lo`; the other writes the
  straight-through form `(round(y) - y) + y` and `-lo`. One sums the 4096 products of a row in four runs of 1024,
  starting from 0; the other sums them at once. Both spellings are defined here; that they agree on finite inputs is
  proved in the modules that import this one.
-/
import Idealize.ShloMosaic.PureOps.Ideal
import Idealize.ShloMosaic.Lib.ValueIdx

noncomputable section

namespace Cert.Quant

open Idealize.ShloMosaic Idealize.ShloMosaic.ValueIdx

/-- The extended real a 32-bit float pattern denotes. -/
abbrev lit (b : BitVec 32) : EReal := Ideal.ofBits .f32 b

/-- Rounding to the nearest integer, ties to even, on the extended reals (the infinities fixed). -/
abbrev rnd (y : EReal) : EReal := Ideal.liftRound Ideal.roundHalfEven y

/-! ## One group -/

/-- A learned scale clamped to [-1, 0]. -/
def clampScale (s : EReal) : EReal := min (lit 0x00000000#32) (max (lit 0xBF800000#32) s)

/-- `min(gmin, 0) · (clamp mn + 1)`: never positive on finite inputs. -/
def lowEnd (gmin mn : EReal) : EReal := min gmin (lit 0x00000000#32) * (clampScale mn + lit 0x3F800000#32)

/-- `max(gmax, 0) · (clamp mx + 1)`: never negative on finite inputs. -/
def highEnd (gmax mx : EReal) : EReal := max gmax (lit 0x00000000#32) * (clampScale mx + lit 0x3F800000#32)

/-- Both range ends are zero. -/
def degenerate (a b : EReal) : BitVec 1 :=
  IntOp.andi (Ideal.cmp .oeq (min b a) (lit 0x00000000#32)) (Ideal.cmp .oeq (max b a) (lit 0x00000000#32))

/-- The range's lower end: `min(b, a)`, or -1 for a degenerate range. -/
def rangeLo (a b : EReal) : EReal := Scalar.select (degenerate a b) (lit 0xBF800000#32) (min b a)

/-- The range's upper end: `max(b, a)`, or 1 for a degenerate range. -/
def rangeHi (a b : EReal) : EReal := Scalar.select (degenerate a b) (lit 0x3F800000#32) (max b a)

/-- The quantization step `(hi - lo) / 15`. -/
def step (a b : EReal) : EReal := Ideal.div (rangeHi a b - rangeLo a b) (lit 0x41700000#32)

/-- The zero point `round((0 - lo) / step)`. -/
def zeroPt (a b : EReal) : EReal := rnd (Ideal.div (lit 0x00000000#32 - rangeLo a b) (step a b))

/-- The zero point in the straight-through spelling: `(round(y) - y) + y` at `y = (-lo) / step`. -/
def zeroPtSte (a b : EReal) : EReal :=
  (rnd (Ideal.div (-(rangeLo a b)) (step a b)) - Ideal.div (-(rangeLo a b)) (step a b)) + Ideal.div (-(rangeLo a b)) (step a b)

/-- An entry quantized and mapped back: `s · (clip(round(w / s + v) + z, 0, 15) - z)`. -/
def dequant (s z w v : EReal) : EReal :=
  s * (min (lit 0x41700000#32) (max (lit 0x00000000#32) (rnd (Ideal.div w s + v) + z)) - z)

/-- The same in the straight-through spelling of the rounding. -/
def dequantSte (s z w v : EReal) : EReal :=
  s * (min (lit 0x41700000#32) (max (lit 0x00000000#32) (((rnd (Ideal.div w s + v) - (Ideal.div w s + v)) + (Ideal.div w s + v)) + z)) - z)

/-! ## The arrays -/

abbrev SX : Shape := ⟨2, ![32, 4096]⟩
abbrev SW : Shape := ⟨2, ![4096, 4096]⟩
abbrev SB : Shape := ⟨1, ![4096]⟩
abbrev SS : Shape := ⟨1, ![131072]⟩

/-- Column `128·q + l` of a row: entry `l` of group `q`. -/
abbrev grpCol (q : Fin 32) (l : Fin 128) : Fin 4096 := ⟨128 * q.val + l.val, by omega⟩

/-- The group a column lies in. -/
abbrev grpOf (c : Fin 4096) : Fin 32 := ⟨c.val / 128, by omega⟩

/-- Where the scales of row `o`, group `q` sit in the flat scale vectors. -/
abbrev scaleAt (o : Fin 4096) (q : Fin 32) : Fin 131072 := ⟨32 * o.val + q.val, by omega⟩

/-- Group `q` of row `o` of the weights. -/
def grpRow (W : SW.Idx → EReal) (o : Fin 4096) (q : Fin 32) : Fin 128 → EReal := fun l => W (ix2 o (grpCol q l))

/-- The group's minimum, started from +inf. -/
def grpMin (W : SW.Idx → EReal) (o : Fin 4096) (q : Fin 32) : EReal :=
  (Finset.univ : Finset (Fin 128)).fold min (lit 0x7F800000#32) (grpRow W o q)

/-- The group's maximum, started from -inf. -/
def grpMax (W : SW.Idx → EReal) (o : Fin 4096) (q : Fin 32) : EReal :=
  (Finset.univ : Finset (Fin 128)).fold max (lit 0xFF800000#32) (grpRow W o q)

/-- The lower range end of row `o`, group `q`. -/
def lowOf (W : SW.Idx → EReal) (mn : SS.Idx → EReal) (o : Fin 4096) (q : Fin 32) : EReal :=
  lowEnd (grpMin W o q) (mn (ix1 (scaleAt o q)))

/-- The upper range end of row `o`, group `q`. -/
def highOf (W : SW.Idx → EReal) (mx : SS.Idx → EReal) (o : Fin 4096) (q : Fin 32) : EReal :=
  highEnd (grpMax W o q) (mx (ix1 (scaleAt o q)))

/-- Entry (o, c) of the fake-quantized weights. -/
def wq (W V : SW.Idx → EReal) (mn mx : SS.Idx → EReal) (o c : Fin 4096) : EReal :=
  dequant (step (lowOf W mn o (grpOf c)) (highOf W mx o (grpOf c))) (zeroPt (lowOf W mn o (grpOf c)) (highOf W mx o (grpOf c)))
    (W (ix2 o c)) (V (ix2 o c))

/-- The same entry in the straight-through spelling. -/
def wqSte (W V : SW.Idx → EReal) (mn mx : SS.Idx → EReal) (o c : Fin 4096) : EReal :=
  dequantSte (step (lowOf W mn o (grpOf c)) (highOf W mx o (grpOf c))) (zeroPtSte (lowOf W mn o (grpOf c)) (highOf W mx o (grpOf c)))
    (W (ix2 o c)) (V (ix2 o c))

/-- Column `1024·k + l`: entry `l` of the `k`-th run of 1024 columns. -/
abbrev runCol (k : Fin 4) (l : Fin 1024) : Fin 4096 := ⟨1024 * k.val + l.val, by omega⟩

/-- The products of row `a` of `x` with row `o` of the quantized weights, summed over the `k`-th run of 1024 columns. -/
def partialDot (X : SX.Idx → EReal) (W V : SW.Idx → EReal) (mn mx : SS.Idx → EReal) (a : Fin 32) (o : Fin 4096) (k : Fin 4) : EReal :=
  ∑ l : Fin 1024, X (ix2 a (runCol k l)) * wq W V mn mx o (runCol k l)

/-- The result as the blocked program arranges it: the four runs added one after the other to 0, then the bias. -/
def outBlocked (X : SX.Idx → EReal) (W : SW.Idx → EReal) (B : SB.Idx → EReal) (V : SW.Idx → EReal) (mn mx : SS.Idx → EReal) :
    SX.Idx → EReal := fun i =>
  ((((0 + partialDot X W V mn mx (i 0) (i 1) 0) + partialDot X W V mn mx (i 0) (i 1) 1) + partialDot X W V mn mx (i 0) (i 1) 2)
      + partialDot X W V mn mx (i 0) (i 1) 3) + B (ix1 (i 1))

/-- The result as the plain program arranges it: one sum over the 4096 columns, the straight-through spelling, then the bias. -/
def outPlain (X : SX.Idx → EReal) (W : SW.Idx → EReal) (B : SB.Idx → EReal) (V : SW.Idx → EReal) (mn mx : SS.Idx → EReal) :
    SX.Idx → EReal := fun i =>
  (∑ c : Fin 4096, X (ix2 (i 0) c) * wqSte W V mn mx (i 1) c) + B (ix1 (i 1))

/-- Every entry is a real number. -/
def AllReal {S : Shape} (A : S.Idx → EReal) : Prop := ∀ i, ∃ r : ℝ, A i = (r : EReal)

end Cert.Quant

end
-- ==== Proof.BlockSpec.lean ====
/-
  One grid point's work, over the blocks it is handed: a 512 × 1024 block of the weights and of the rounding
  offsets (512 rows, eight groups of 128 columns), and the 8 × 512 blocks of the two scale arrays (group by row).
  Row `j`, group `g`, entry `l` is quantized with the group's own step and zero point, and the point's
  contribution to the result is the product of the 32 × 1024 block of `x` with these 512 × 1024 entries.
-/
import proofs.«106327_j33122787787467_1_alg».proof.Proof.QuantSpec

noncomputable section

namespace Cert.Quant

open Idealize.ShloMosaic Idealize.ShloMosaic.ValueIdx

abbrev SXb : Shape := ⟨2, ![32, 1024]⟩
abbrev SWb : Shape := ⟨2, ![512, 1024]⟩
abbrev SSb : Shape := ⟨2, ![8, 512]⟩

/-- Column `128·g + l` of the block: entry `l` of its group `g`. -/
abbrev blkCol (g : Fin 8) (l : Fin 128) : Fin 1024 := ⟨128 * g.val + l.val, by omega⟩

/-- Group `g` of row `j` of the weight block. -/
def blkRow (wb : SWb.Idx → EReal) (j : Fin 512) (g : Fin 8) : Fin 128 → EReal := fun l => wb (ix2 j (blkCol g l))

/-- The lower range end of row `j`, group `g` of the block. -/
def lowBlk (wb : SWb.Idx → EReal) (mnb : SSb.Idx → EReal) (j : Fin 512) (g : Fin 8) : EReal :=
  lowEnd ((Finset.univ : Finset (Fin 128)).fold min (lit 0x7F800000#32) (blkRow wb j g)) (mnb (ix2 g j))

/-- The upper range end of row `j`, group `g` of the block. -/
def highBlk (wb : SWb.Idx → EReal) (mxb : SSb.Idx → EReal) (j : Fin 512) (g : Fin 8) : EReal :=
  highEnd ((Finset.univ : Finset (Fin 128)).fold max (lit 0xFF800000#32) (blkRow wb j g)) (mxb (ix2 g j))

/-- Entry `l` of group `g` of row `j`, quantized and mapped back. -/
def wqBlk (wb vb : SWb.Idx → EReal) (mnb mxb : SSb.Idx → EReal) (j : Fin 512) (g : Fin 8) (l : Fin 128) : EReal :=
  dequant (step (lowBlk wb mnb j g) (highBlk wb mxb j g)) (zeroPt (lowBlk wb mnb j g) (highBlk wb mxb j g))
    (wb (ix2 j (blkCol g l))) (vb (ix2 j (blkCol g l)))

/-- The group and the entry inside it of a block column. -/
abbrev colGrp (l : Fin 1024) : Fin 8 := ⟨l.val / 128, by omega⟩
abbrev colEnt (l : Fin 1024) : Fin 128 := ⟨l.val % 128, Nat.mod_lt _ (by decide)⟩

/-- The point's contribution at (a, j): row `a` of the `x` block against row `j` of the quantized block. -/
def dotBlk (xb : SXb.Idx → EReal) (wb vb : SWb.Idx → EReal) (mnb mxb : SSb.Idx → EReal) (a : Fin 32) (j : Fin 512) : EReal :=
  ∑ l : Fin 1024, xb (ix2 a l) * wqBlk wb vb mnb mxb j (colGrp l) (colEnt l)

end Cert.Quant

end
-- ==== Proof.BlockOps.lean ====
/-
  Reading a block's derived arrays at one entry: a load of a sub-rectangle is the block at the shifted entry, the
  changes of shape between a row, a vector and a column keep the entry, a column broadcast over the columns of a
  group repeats it, and the minimum or maximum along a group's 128 columns is the fold of min or max over them.
-/
import proofs.«106327_j33122787787467_1_alg».proof.Proof.KernelTerms
import proofs.«106327_j33122787787467_1_alg».proof.Proof.BlockSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.BlockOps

open Cert.KernelIdeal Cert.KernelIdeal.Gen Idealize.ShloMosaic Idealize.ShloMosaic.TcCoe Idealize.ShloMosaic.ValueIdx

variable {F : FTy → Type}

/-! ## Loads -/

/-- A load of 128 columns from column `off` on: entry (j, l) of it is entry (j, off + l) of the block. -/
theorem ld_cols_apply (x : Vec F S512x1024 .f32) (off : Nat)
    (inb : ∀ a, (![0, off] : Fin 2 → Nat) a + S512x128.size a ≤ S512x1024.size a) (j : Fin 512) (l : Fin 128) (c : Fin 1024)
    (hc : c.val = off + l.val) :
    View.ld x (Rect.unit ![0, off] S512x128.size inb) (ix2 j l) = x (ix2 j c) := by
  show x _ = x _
  refine congrArg x (funext fun a => ?_)
  match a with
  | ⟨0, _⟩ => exact Fin.ext (show 0 + 1 * j.val = j.val by omega)
  | ⟨1, _⟩ => exact Fin.ext (show off + 1 * l.val = c.val by omega)

/-- A load of row `g` of an 8 × 512 block: entry (0, j) of it is entry (g, j) of the block. -/
theorem ld_row_apply (x : Vec F S8x512 .f32) (g : Nat)
    (inb : ∀ a, (![g, 0] : Fin 2 → Nat) a + S1x512.size a ≤ S8x512.size a) (r : Fin 8) (hr : r.val = g) (j : Fin 512) :
    View.ld x (Rect.unit ![g, 0] S1x512.size inb) (ix2 (0 : Fin 1) j) = x (ix2 r j) := by
  show x _ = x _
  refine congrArg x (funext fun a => ?_)
  match a with
  | ⟨0, _⟩ => exact Fin.ext (show g + 1 * 0 = r.val by omega)
  | ⟨1, _⟩ => exact Fin.ext (show 0 + 1 * j.val = j.val by omega)

/-! ## Changes of shape -/

variable {α : Type}

/-- A one-row array read as a vector keeps its entries. -/
theorem cast_row_vec_apply (x : S1x512.Idx → α) (h : S1x512.ShapeCasts S512) (j : Fin 512) :
    shapeCast S512 x h (ix1 j) = x (ix2 (0 : Fin 1) j) :=
  shapeCast_1a_a_apply x h j

/-- A vector read as a one-column array keeps its entries. -/
theorem cast_vec_col_apply (x : S512.Idx → α) (h : S512.ShapeCasts S512x1) (j : Fin 512) (u : Fin 1) :
    shapeCast S512x1 x h (ix2 j u) = x (ix1 j) :=
  shapeCast_apply x h _ _ (by
    have hu : u.val = 0 := by omega
    rw [Shape.rowMajor_val_one, Shape.rowMajor_val_two]
    show j.val = j.val * 1 + u.val
    omega)

/-- A one-column array repeated over 128 columns reads its row's entry everywhere in the row. -/
theorem bcast_col_apply (v : S512x1.Idx → α) (h : S512x1.Broadcasts S512x128) (j : Fin 512) (l : Fin 128) :
    broadcastTo S512x128 v h (ix2 j l) = v (ix2 j (0 : Fin 1)) := by
  refine broadcastTo_apply v h (ix2 j l) (ix2 j (0 : Fin 1)) fun ax => ?_
  match ax with
  | ⟨0, _⟩ => rfl
  | ⟨1, _⟩ => rfl

/-! ## The minimum and maximum along a group's columns -/

/-- Entry (j, l) of the block is the lifted entry of row index `j` at column `l`. -/
theorem lift_row (h : S512x128.Reduces [1] S512) (j : Fin 512) (l : Fin 128) : h.lift (ix1 j) l = ix2 j l := by
  funext a
  match a with
  | ⟨0, _⟩ => exact Fin.ext rfl
  | ⟨1, _⟩ => exact Fin.ext rfl

/-- The minimum along the columns of a 512 × 128 array, at row `j`: the fold of `min` over the 128 entries of the row. -/
theorem rowMin_apply (v : FVec Ideal S512x128 .f32) (acc : BitVec 32) (h : S512x128.Reduces [1] S512) (hφ : FKind.Formats .f32)
    (hacc : acc = FKind.minimumf.neutral .f32 hφ) (j : Fin 512) :
    multiReduction (F := Ideal) .minimumf [1] S512 v acc h hφ hacc (ix1 j)
      = (Finset.univ : Finset (Fin 128)).fold min (Ideal.ofBits .f32 acc) (fun l => v (ix2 j l)) := by
  refine (multiReduction_minimumf_eq_fold v acc h hφ hacc (ix1 j)).trans ?_
  refine (h.fold_filter_drop_single _ _ v (ix1 j)).trans ?_
  refine congrArg (fun f : Fin 128 → EReal => (Finset.univ : Finset (Fin 128)).fold min (Ideal.ofBits .f32 acc) f) (funext fun l => ?_)
  exact congrArg v (lift_row h j l)

/-- The maximum along the columns of a 512 × 128 array, at row `j`: the fold of `max` over the 128 entries of the row. -/
theorem rowMax_apply (v : FVec Ideal S512x128 .f32) (acc : BitVec 32) (h : S512x128.Reduces [1] S512) (hφ : FKind.Formats .f32)
    (hacc : acc = FKind.maximumf.neutral .f32 hφ) (j : Fin 512) :
    multiReduction (F := Ideal) .maximumf [1] S512 v acc h hφ hacc (ix1 j)
      = (Finset.univ : Finset (Fin 128)).fold max (Ideal.ofBits .f32 acc) (fun l => v (ix2 j l)) := by
  refine (multiReduction_maximumf_eq_fold v acc h hφ hacc (ix1 j)).trans ?_
  refine (h.fold_filter_drop_single _ _ v (ix1 j)).trans ?_
  refine congrArg (fun f : Fin 128 → EReal => (Finset.univ : Finset (Fin 128)).fold max (Ideal.ofBits .f32 acc) f) (funext fun l => ?_)
  exact congrArg v (lift_row h j l)

end Cert.KernelIdeal.BlockOps

end
-- ==== Proof.GroupsLow.lean ====
/-
  Groups 0 to 3 of a grid point's weight block, read entry by entry at the extended reals: each chain of payloads
  is the group's clamp, range ends, step, zero point and dequantized entry.
-/
import proofs.«106327_j33122787787467_1_alg».proof.Proof.KernelTerms
import proofs.«106327_j33122787787467_1_alg».proof.Proof.BlockSpec
import proofs.«106327_j33122787787467_1_alg».proof.Proof.BlockOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.GroupValue

open Cert.KernelIdeal Cert.KernelIdeal.Gen Cert.KernelIdeal.Terms Cert.KernelIdeal.BlockOps Idealize.ShloMosaic Idealize.ShloMosaic.TcCoe Idealize.ShloMosaic.ValueIdx

section Pointwise
variable {s : Shape} {φ : FTy}

/-- Rounding an array to the nearest integers rounds each entry. -/
private theorem roundeven_apply (a : FVec Ideal s φ) (i : s.Idx) : roundeven a i = Cert.Quant.rnd (a i) := rfl

/-- The conjunction of two arrays of bits is taken entry by entry. -/
private theorem andi_apply {w : Nat} (a b : IVec s w) (i : s.Idx) : andi a b i = IntOp.andi (a i) (b i) := rfl

end Pointwise

/-- Group 0 of the block, entry by entry, is the block specification's quantized entry. -/
theorem grp0_at (x1 x2 : Vec Ideal S512x1024 .f32) (x3 x4 : Vec Ideal S8x512 .f32) (j : Fin 512) (l : Fin 128) :
    grp0 (F := Ideal) x1 x2 x3 x4 (ix2 j l) = Cert.Quant.wqBlk x1 x2 x3 x4 j 0 l := by
  -- the group's loads at an entry: columns 128·0 + l of the weight and offset blocks, row 0 of the scale blocks
  have e1 : ∀ (j : Fin 512) (l : Fin 128), wLd0 x1 (ix2 j l) = x1 (ix2 j (Cert.Quant.blkCol 0 l)) := fun j l =>
    ld_cols_apply x1 0 _ j l (Cert.Quant.blkCol 0 l) (by show 128 * 0 + l.val = 0 + l.val; omega)
  have e2 : ∀ (j : Fin 512) (l : Fin 128), wLd0 x2 (ix2 j l) = x2 (ix2 j (Cert.Quant.blkCol 0 l)) := fun j l =>
    ld_cols_apply x2 0 _ j l (Cert.Quant.blkCol 0 l) (by show 128 * 0 + l.val = 0 + l.val; omega)
  have e3 : ∀ j : Fin 512, sLd0 x3 (ix2 (0 : Fin 1) j) = x3 (ix2 (0 : Fin 8) j) := fun j => ld_row_apply x3 0 _ 0 rfl j
  have e4 : ∀ j : Fin 512, sLd0 x4 (ix2 (0 : Fin 1) j) = x4 (ix2 (0 : Fin 8) j) := fun j => ld_row_apply x4 0 _ 0 rfl j
  -- the group's minimum and maximum along its 128 columns, as folds over the row's entries
  have hmin := fun j : Fin 512 => rowMin_apply (wLd0 x1) 0x7F800000#32 reduces_S512x128_S512 (.inl rfl) rfl j
  have hmax := fun j : Fin 512 => rowMax_apply (wLd0 x1) 0xFF800000#32 reduces_S512x128_S512 (.inl rfl) rfl j
  unfold grp0 k0_pay9 k0_pay6 k0_pay7 k0_pay8 k0_pay5 k0_pay4
  -- every other operation acts entry by entry; the column quantities are read at (j, 0), the scales at (0, j)
  simp only [mulf_apply, addf_apply, subf_apply, divf_apply, maximumf_apply, minimumf_apply, roundeven_apply, andi_apply,
    broadcast_apply, cmpf_apply, select_apply, bcast_col_apply, cast_vec_col_apply, cast_row_vec_apply, hmin, hmax,
    e1, e2, e3, e4]
  -- what is left is the specification's entry, spelt out
  unfold Cert.Quant.wqBlk Cert.Quant.dequant Cert.Quant.step Cert.Quant.zeroPt Cert.Quant.rangeLo Cert.Quant.rangeHi Cert.Quant.degenerate
    Cert.Quant.lowBlk Cert.Quant.highBlk Cert.Quant.lowEnd Cert.Quant.highEnd Cert.Quant.clampScale Cert.Quant.blkRow
  rfl

/-- Group 1 of the block, entry by entry, is the block specification's quantized entry. -/
theorem grp1_at (x1 x2 : Vec Ideal S512x1024 .f32) (x3 x4 : Vec Ideal S8x512 .f32) (j : Fin 512) (l : Fin 128) :
    grp1 (F := Ideal) x1 x2 x3 x4 (ix2 j l) = Cert.Quant.wqBlk x1 x2 x3 x4 j 1 l := by
  -- the group's loads at an entry: columns 128·1 + l of the weight and offset blocks, row 1 of the scale blocks
  have e1 : ∀ (j : Fin 512) (l : Fin 128), wLd1 x1 (ix2 j l) = x1 (ix2 j (Cert.Quant.blkCol 1 l)) := fun j l =>
    ld_cols_apply x1 128 _ j l (Cert.Quant.blkCol 1 l) (by show 128 * 1 + l.val = 128 + l.val; omega)
  have e2 : ∀ (j : Fin 512) (l : Fin 128), wLd1 x2 (ix2 j l) = x2 (ix2 j (Cert.Quant.blkCol 1 l)) := fun j l =>
    ld_cols_apply x2 128 _ j l (Cert.Quant.blkCol 1 l) (by show 128 * 1 + l.val = 128 + l.val; omega)
  have e3 : ∀ j : Fin 512, sLd1 x3 (ix2 (0 : Fin 1) j) = x3 (ix2 (1 : Fin 8) j) := fun j => ld_row_apply x3 1 _ 1 rfl j
  have e4 : ∀ j : Fin 512, sLd1 x4 (ix2 (0 : Fin 1) j) = x4 (ix2 (1 : Fin 8) j) := fun j => ld_row_apply x4 1 _ 1 rfl j
  -- the group's minimum and maximum along its 128 columns, as folds over the row's entries
  have hmin := fun j : Fin 512 => rowMin_apply (wLd1 x1) 0x7F800000#32 reduces_S512x128_S512 (.inl rfl) rfl j
  have hmax := fun j : Fin 512 => rowMax_apply (wLd1 x1) 0xFF800000#32 reduces_S512x128_S512 (.inl rfl) rfl j
  unfold grp1 k0_pay21 k0_pay20 k0_pay19 k0_pay18 k0_pay17 k0_pay16 k0_pay15 k0_pay14 k0_pay13 k0_pay12 k0_pay11 k0_pay10
  -- every other operation acts entry by entry; the column quantities are read at (j, 0), the scales at (1, j)
  simp only [mulf_apply, addf_apply, subf_apply, divf_apply, maximumf_apply, minimumf_apply, roundeven_apply, andi_apply,
    broadcast_apply, cmpf_apply, select_apply, bcast_col_apply, cast_vec_col_apply, cast_row_vec_apply, hmin, hmax,
    e1, e2, e3, e4]
  -- what is left is the specification's entry, spelt out
  unfold Cert.Quant.wqBlk Cert.Quant.dequant Cert.Quant.step Cert.Quant.zeroPt Cert.Quant.rangeLo Cert.Quant.rangeHi Cert.Quant.degenerate
    Cert.Quant.lowBlk Cert.Quant.highBlk Cert.Quant.lowEnd Cert.Quant.highEnd Cert.Quant.clampScale Cert.Quant.blkRow
  rfl

/-- Group 2 of the block, entry by entry, is the block specification's quantized entry. -/
theorem grp2_at (x1 x2 : Vec Ideal S512x1024 .f32) (x3 x4 : Vec Ideal S8x512 .f32) (j : Fin 512) (l : Fin 128) :
    grp2 (F := Ideal) x1 x2 x3 x4 (ix2 j l) = Cert.Quant.wqBlk x1 x2 x3 x4 j 2 l := by
  -- the group's loads at an entry: columns 128·2 + l of the weight and offset blocks, row 2 of the scale blocks
  have e1 : ∀ (j : Fin 512) (l : Fin 128), wLd2 x1 (ix2 j l) = x1 (ix2 j (Cert.Quant.blkCol 2 l)) := fun j l =>
    ld_cols_apply x1 256 _ j l (Cert.Quant.blkCol 2 l) (by show 128 * 2 + l.val = 256 + l.val; omega)
  have e2 : ∀ (j : Fin 512) (l : Fin 128), wLd2 x2 (ix2 j l) = x2 (ix2 j (Cert.Quant.blkCol 2 l)) := fun j l =>
    ld_cols_apply x2 256 _ j l (Cert.Quant.blkCol 2 l) (by show 128 * 2 + l.val = 256 + l.val; omega)
  have e3 : ∀ j : Fin 512, sLd2 x3 (ix2 (0 : Fin 1) j) = x3 (ix2 (2 : Fin 8) j) := fun j => ld_row_apply x3 2 _ 2 rfl j
  have e4 : ∀ j : Fin 512, sLd2 x4 (ix2 (0 : Fin 1) j) = x4 (ix2 (2 : Fin 8) j) := fun j => ld_row_apply x4 2 _ 2 rfl j
  -- the group's minimum and maximum along its 128 columns, as folds over the row's entries
  have hmin := fun j : Fin 512 => rowMin_apply (wLd2 x1) 0x7F800000#32 reduces_S512x128_S512 (.inl rfl) rfl j
  have hmax := fun j : Fin 512 => rowMax_apply (wLd2 x1) 0xFF800000#32 reduces_S512x128_S512 (.inl rfl) rfl j
  unfold grp2 k0_pay28 k0_pay27 k0_pay26 k0_pay25 k0_pay24 k0_pay23 k0_pay22
  -- every other operation acts entry by entry; the column quantities are read at (j, 0), the scales at (2, j)
  simp only [mulf_apply, addf_apply, subf_apply, divf_apply, maximumf_apply, minimumf_apply, roundeven_apply, andi_apply,
    broadcast_apply, cmpf_apply, select_apply, bcast_col_apply, cast_vec_col_apply, cast_row_vec_apply, hmin, hmax,
    e1, e2, e3, e4]
  -- what is left is the specification's entry, spelt out
  unfold Cert.Quant.wqBlk Cert.Quant.dequant Cert.Quant.step Cert.Quant.zeroPt Cert.Quant.rangeLo Cert.Quant.rangeHi Cert.Quant.degenerate
    Cert.Quant.lowBlk Cert.Quant.highBlk Cert.Quant.lowEnd Cert.Quant.highEnd Cert.Quant.clampScale Cert.Quant.blkRow
  rfl

/-- Group 3 of the block, entry by entry, is the block specification's quantized entry. -/
theorem grp3_at (x1 x2 : Vec Ideal S512x1024 .f32) (x3 x4 : Vec Ideal S8x512 .f32) (j : Fin 512) (l : Fin 128) :
    grp3 (F := Ideal) x1 x2 x3 x4 (ix2 j l) = Cert.Quant.wqBlk x1 x2 x3 x4 j 3 l := by
  -- the group's loads at an entry: columns 128·3 + l of the weight and offset blocks, row 3 of the scale blocks
  have e1 : ∀ (j : Fin 512) (l : Fin 128), wLd3 x1 (ix2 j l) = x1 (ix2 j (Cert.Quant.blkCol 3 l)) := fun j l =>
    ld_cols_apply x1 384 _ j l (Cert.Quant.blkCol 3 l) (by show 128 * 3 + l.val = 384 + l.val; omega)
  have e2 : ∀ (j : Fin 512) (l : Fin 128), wLd3 x2 (ix2 j l) = x2 (ix2 j (Cert.Quant.blkCol 3 l)) := fun j l =>
    ld_cols_apply x2 384 _ j l (Cert.Quant.blkCol 3 l) (by show 128 * 3 + l.val = 384 + l.val; omega)
  have e3 : ∀ j : Fin 512, sLd3 x3 (ix2 (0 : Fin 1) j) = x3 (ix2 (3 : Fin 8) j) := fun j => ld_row_apply x3 3 _ 3 rfl j
  have e4 : ∀ j : Fin 512, sLd3 x4 (ix2 (0 : Fin 1) j) = x4 (ix2 (3 : Fin 8) j) := fun j => ld_row_apply x4 3 _ 3 rfl j
  -- the group's minimum and maximum along its 128 columns, as folds over the row's entries
  have hmin := fun j : Fin 512 => rowMin_apply (wLd3 x1) 0x7F800000#32 reduces_S512x128_S512 (.inl rfl) rfl j
  have hmax := fun j : Fin 512 => rowMax_apply (wLd3 x1) 0xFF800000#32 reduces_S512x128_S512 (.inl rfl) rfl j
  unfold grp3 k0_pay31 k0_pay30 k0_pay29
  -- every other operation acts entry by entry; the column quantities are read at (j, 0), the scales at (3, j)
  simp only [mulf_apply, addf_apply, subf_apply, divf_apply, maximumf_apply, minimumf_apply, roundeven_apply, andi_apply,
    broadcast_apply, cmpf_apply, select_apply, bcast_col_apply, cast_vec_col_apply, cast_row_vec_apply, hmin, hmax,
    e1, e2, e3, e4]
  -- what is left is the specification's entry, spelt out
  unfold Cert.Quant.wqBlk Cert.Quant.dequant Cert.Quant.step Cert.Quant.zeroPt Cert.Quant.rangeLo Cert.Quant.rangeHi Cert.Quant.degenerate
    Cert.Quant.lowBlk Cert.Quant.highBlk Cert.Quant.lowEnd Cert.Quant.highEnd Cert.Quant.clampScale Cert.Quant.blkRow
  rfl

end Cert.KernelIdeal.GroupValue

end
-- ==== Proof.GroupsHigh.lean ====
/-
  Groups 4 to 7 of a grid point's weight block, read entry by entry at the extended reals: each chain of payloads
  is the group's clamp, range ends, step, zero point and dequantized entry.
-/
import proofs.«106327_j33122787787467_1_alg».proof.Proof.KernelTerms
import proofs.«106327_j33122787787467_1_alg».proof.Proof.BlockSpec
import proofs.«106327_j33122787787467_1_alg».proof.Proof.BlockOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.GroupValue

open Cert.KernelIdeal Cert.KernelIdeal.Gen Cert.KernelIdeal.Terms Idealize.ShloMosaic Idealize.ShloMosaic.TcCoe Idealize.ShloMosaic.ValueIdx

open Cert.KernelIdeal.BlockOps

/-! ## Reading a chain at an entry

Every arithmetic operation of a group's chain acts entry by entry, so the chain read at entry (j, l) is the same
chain of scalar operations over the entries its leaves read; the leaves are the loads, the changes of shape, the
column repeated over the group's columns and the minimum and maximum along the row. -/

/-- Rounding to the nearest integer, ties to even, acts entry by entry. -/
private theorem roundeven_at {s : Shape} {φ : FTy} (a : FVec Ideal s φ) (i : s.Idx) :
    roundeven a i = Cert.Quant.rnd (a i) := rfl

/-- The conjunction of two one-bit conditions acts entry by entry. -/
private theorem andi_at {s : Shape} {w : Nat} (a b : IVec s w) (i : s.Idx) : andi a b i = IntOp.andi (a i) (b i) := rfl

/-- The minimum along a row's 128 entries, started from +inf, with the operation's evidence written out as the
    chains carry it. -/
private theorem rowMin_at (v : FVec Ideal S512x128 .f32) (j : Fin 512) :
    multiReduction (F := Ideal) .minimumf [1] S512 v 0x7F800000#32 reduces_S512x128_S512 (.inl rfl) rfl (ix1 j)
      = (Finset.univ : Finset (Fin 128)).fold min (Cert.Quant.lit 0x7F800000#32) (fun l => v (ix2 j l)) :=
  rowMin_apply v _ _ _ _ j

/-- The maximum along a row's 128 entries, started from -inf, likewise. -/
private theorem rowMax_at (v : FVec Ideal S512x128 .f32) (j : Fin 512) :
    multiReduction (F := Ideal) .maximumf [1] S512 v 0xFF800000#32 reduces_S512x128_S512 (.inl rfl) rfl (ix1 j)
      = (Finset.univ : Finset (Fin 128)).fold max (Cert.Quant.lit 0xFF800000#32) (fun l => v (ix2 j l)) :=
  rowMax_apply v _ _ _ _ j

/-! ## The four groups

Each proof names what the group's four loads read (columns 128·g + l of the weight and offset blocks, row g of the
two scale blocks), reads the chain at (j, l) down to those entries, and meets the specification term for term: the
clamp, the two range ends, the degenerate test, the step, the zero point and the dequantized entry are spelt in
the specification in the order the chain computes them. -/

/-- Group 4 of the block, entry by entry, is the block specification's quantized entry. -/
theorem grp4_at (x1 x2 : Vec Ideal S512x1024 .f32) (x3 x4 : Vec Ideal S8x512 .f32) (j : Fin 512) (l : Fin 128) :
    grp4 (F := Ideal) x1 x2 x3 x4 (ix2 j l) = Cert.Quant.wqBlk x1 x2 x3 x4 j 4 l := by
  have hW : ∀ l, wLd4 x1 (ix2 j l) = x1 (ix2 j (Cert.Quant.blkCol 4 l)) := fun l => ld_cols_apply x1 512 _ j l _ rfl
  have hV : wLd4 x2 (ix2 j l) = x2 (ix2 j (Cert.Quant.blkCol 4 l)) := ld_cols_apply x2 512 _ j l _ rfl
  have hmn : sLd4 x3 (ix2 (0 : Fin 1) j) = x3 (ix2 4 j) := ld_row_apply x3 4 _ 4 rfl j
  have hmx : sLd4 x4 (ix2 (0 : Fin 1) j) = x4 (ix2 4 j) := ld_row_apply x4 4 _ 4 rfl j
  simp only [grp4, k0_pay38, k0_pay37, k0_pay36, k0_pay35, k0_pay34, k0_pay33, k0_pay32, mulf_apply, addf_apply, subf_apply, divf_apply,
    maximumf_apply, minimumf_apply, broadcast_apply, cmpf_apply, select_apply, roundeven_at, andi_at, bcast_col_apply,
    cast_vec_col_apply, cast_row_vec_apply, hW, hV, hmn, hmx]
  rw [rowMin_at, rowMax_at]
  simp only [hW]
  rfl

/-- Group 5 of the block, entry by entry, is the block specification's quantized entry. -/
theorem grp5_at (x1 x2 : Vec Ideal S512x1024 .f32) (x3 x4 : Vec Ideal S8x512 .f32) (j : Fin 512) (l : Fin 128) :
    grp5 (F := Ideal) x1 x2 x3 x4 (ix2 j l) = Cert.Quant.wqBlk x1 x2 x3 x4 j 5 l := by
  have hW : ∀ l, wLd5 x1 (ix2 j l) = x1 (ix2 j (Cert.Quant.blkCol 5 l)) := fun l => ld_cols_apply x1 640 _ j l _ rfl
  have hV : wLd5 x2 (ix2 j l) = x2 (ix2 j (Cert.Quant.blkCol 5 l)) := ld_cols_apply x2 640 _ j l _ rfl
  have hmn : sLd5 x3 (ix2 (0 : Fin 1) j) = x3 (ix2 5 j) := ld_row_apply x3 5 _ 5 rfl j
  have hmx : sLd5 x4 (ix2 (0 : Fin 1) j) = x4 (ix2 5 j) := ld_row_apply x4 5 _ 5 rfl j
  simp only [grp5, k0_pay42, k0_pay41, k0_pay40, k0_pay39, mulf_apply, addf_apply, subf_apply, divf_apply,
    maximumf_apply, minimumf_apply, broadcast_apply, cmpf_apply, select_apply, roundeven_at, andi_at, bcast_col_apply,
    cast_vec_col_apply, cast_row_vec_apply, hW, hV, hmn, hmx]
  rw [rowMin_at, rowMax_at]
  simp only [hW]
  rfl

/-- Group 6 of the block, entry by entry, is the block specification's quantized entry. -/
theorem grp6_at (x1 x2 : Vec Ideal S512x1024 .f32) (x3 x4 : Vec Ideal S8x512 .f32) (j : Fin 512) (l : Fin 128) :
    grp6 (F := Ideal) x1 x2 x3 x4 (ix2 j l) = Cert.Quant.wqBlk x1 x2 x3 x4 j 6 l := by
  have hW : ∀ l, wLd6 x1 (ix2 j l) = x1 (ix2 j (Cert.Quant.blkCol 6 l)) := fun l => ld_cols_apply x1 768 _ j l _ rfl
  have hV : wLd6 x2 (ix2 j l) = x2 (ix2 j (Cert.Quant.blkCol 6 l)) := ld_cols_apply x2 768 _ j l _ rfl
  have hmn : sLd6 x3 (ix2 (0 : Fin 1) j) = x3 (ix2 6 j) := ld_row_apply x3 6 _ 6 rfl j
  have hmx : sLd6 x4 (ix2 (0 : Fin 1) j) = x4 (ix2 6 j) := ld_row_apply x4 6 _ 6 rfl j
  simp only [grp6, k0_pay51, k0_pay50, k0_pay49, k0_pay48, k0_pay47, k0_pay46, k0_pay45, k0_pay44, k0_pay43, mulf_apply, addf_apply, subf_apply, divf_apply,
    maximumf_apply, minimumf_apply, broadcast_apply, cmpf_apply, select_apply, roundeven_at, andi_at, bcast_col_apply,
    cast_vec_col_apply, cast_row_vec_apply, hW, hV, hmn, hmx]
  rw [rowMin_at, rowMax_at]
  simp only [hW]
  rfl

/-- Group 7 of the block, entry by entry, is the block specification's quantized entry. -/
theorem grp7_at (x1 x2 : Vec Ideal S512x1024 .f32) (x3 x4 : Vec Ideal S8x512 .f32) (j : Fin 512) (l : Fin 128) :
    grp7 (F := Ideal) x1 x2 x3 x4 (ix2 j l) = Cert.Quant.wqBlk x1 x2 x3 x4 j 7 l := by
  have hW : ∀ l, wLd7 x1 (ix2 j l) = x1 (ix2 j (Cert.Quant.blkCol 7 l)) := fun l => ld_cols_apply x1 896 _ j l _ rfl
  have hV : wLd7 x2 (ix2 j l) = x2 (ix2 j (Cert.Quant.blkCol 7 l)) := ld_cols_apply x2 896 _ j l _ rfl
  have hmn : sLd7 x3 (ix2 (0 : Fin 1) j) = x3 (ix2 7 j) := ld_row_apply x3 7 _ 7 rfl j
  have hmx : sLd7 x4 (ix2 (0 : Fin 1) j) = x4 (ix2 7 j) := ld_row_apply x4 7 _ 7 rfl j
  simp only [grp7, tail7, k0_pay56, k0_pay55, k0_pay54, k0_pay53, k0_pay52, mulf_apply, addf_apply, subf_apply, divf_apply,
    maximumf_apply, minimumf_apply, broadcast_apply, cmpf_apply, select_apply, roundeven_at, andi_at, bcast_col_apply,
    cast_vec_col_apply, cast_row_vec_apply, hW, hV, hmn, hmx]
  rw [rowMin_at, rowMax_at]
  simp only [hW]
  rfl

end Cert.KernelIdeal.GroupValue

end
-- ==== Proof.PartialProduct.lean ====
/-
  A grid point's partial product, entry by entry at the extended reals: the eight groups side by side are the
  quantized block, and the matrix product onto a zero accumulator is the plain sum over the 1024 columns.
-/
import proofs.«106327_j33122787787467_1_alg».proof.Proof.GroupsLow
import proofs.«106327_j33122787787467_1_alg».proof.Proof.GroupsHigh

set_option maxRecDepth 16384

noncomputable section

namespace Cert.KernelIdeal.GroupValue

open Cert.KernelIdeal Cert.KernelIdeal.Gen Cert.KernelIdeal.Terms Idealize.ShloMosaic Idealize.ShloMosaic.TcCoe Idealize.ShloMosaic.ValueIdx

/-- Piece `k` of eight 512 × 128 pieces laid side by side, read at column `128·k + e`. -/
theorem cat8_at {α : Type} (p0 p1 p2 p3 p4 p5 p6 p7 : S512x128.Idx → α)
    (h : Shape.Concatenates (([⟨S512x128, p0⟩, ⟨S512x128, p1⟩, ⟨S512x128, p2⟩, ⟨S512x128, p3⟩, ⟨S512x128, p4⟩, ⟨S512x128, p5⟩,
      ⟨S512x128, p6⟩, ⟨S512x128, p7⟩] : List ((s : Shape) × (s.Idx → α))).map (·.1)) S512x1024 1)
    (j : Fin 512) (e : Fin 128) (k : Nat) (hk : k < 8) (x : S512x128.Idx → α)
    (hx : ([⟨S512x128, p0⟩, ⟨S512x128, p1⟩, ⟨S512x128, p2⟩, ⟨S512x128, p3⟩, ⟨S512x128, p4⟩, ⟨S512x128, p5⟩,
      ⟨S512x128, p6⟩, ⟨S512x128, p7⟩] : List ((s : Shape) × (s.Idx → α)))[k]'hk = ⟨S512x128, x⟩)
    (hpre : (((([⟨S512x128, p0⟩, ⟨S512x128, p1⟩, ⟨S512x128, p2⟩, ⟨S512x128, p3⟩, ⟨S512x128, p4⟩, ⟨S512x128, p5⟩,
      ⟨S512x128, p6⟩, ⟨S512x128, p7⟩] : List ((s : Shape) × (s.Idx → α))).take k).map (·.1)).map fun s : Shape =>
      if h : s.rank = S512x1024.rank then s.size ((1 : Fin S512x1024.rank).cast h.symm) else 0).sum = 128 * k) :
    concatenate S512x1024 1 ([⟨S512x128, p0⟩, ⟨S512x128, p1⟩, ⟨S512x128, p2⟩, ⟨S512x128, p3⟩, ⟨S512x128, p4⟩, ⟨S512x128, p5⟩,
      ⟨S512x128, p6⟩, ⟨S512x128, p7⟩] : List ((s : Shape) × (s.Idx → α))) h (ix2 j (⟨128 * k + e.val, by omega⟩ : Fin 1024)) = x (ix2 j e) := by
  refine concatenate_apply_piece (1 : Fin S512x1024.rank) _ h _ k hk S512x128 x hx rfl (128 * k) hpre (ix2 j e) ?_ ?_
  · intro b hb
    fin_cases b
    · rfl
    · exact absurd rfl hb
  · rfl

/-- The eight groups side by side, entry by entry: column `l` lies in group `l / 128` at entry `l % 128`. -/
theorem catK_at (x1 x2 : Vec Ideal S512x1024 .f32) (x3 x4 : Vec Ideal S8x512 .f32) (j : Fin 512) (l : Fin 1024) :
    catK (F := Ideal) x1 x2 x3 x4 (ix2 j l) = Cert.Quant.wqBlk x1 x2 x3 x4 j (Cert.Quant.colGrp l) (Cert.Quant.colEnt l) := by
  obtain ⟨g, e, rfl⟩ : ∃ (g : Fin 8) (e : Fin 128), l = Cert.Quant.blkCol g e :=
    ⟨⟨l.val / 128, by omega⟩, ⟨l.val % 128, Nat.mod_lt _ (by decide)⟩, Fin.ext (by show l.val = 128 * (l.val / 128) + l.val % 128; omega)⟩
  have hg : Cert.Quant.colGrp (Cert.Quant.blkCol g e) = g := Fin.ext (by show (128 * g.val + e.val) / 128 = g.val; omega)
  have he : Cert.Quant.colEnt (Cert.Quant.blkCol g e) = e := Fin.ext (by show (128 * g.val + e.val) % 128 = e.val; omega)
  rw [hg, he]
  unfold catK
  fin_cases g
  · exact (cat8_at _ _ _ _ _ _ _ _ _ j e 0 (by decide) _ rfl rfl).trans (grp0_at x1 x2 x3 x4 j e)
  · exact (cat8_at _ _ _ _ _ _ _ _ _ j e 1 (by decide) _ rfl rfl).trans (grp1_at x1 x2 x3 x4 j e)
  · exact (cat8_at _ _ _ _ _ _ _ _ _ j e 2 (by decide) _ rfl rfl).trans (grp2_at x1 x2 x3 x4 j e)
  · exact (cat8_at _ _ _ _ _ _ _ _ _ j e 3 (by decide) _ rfl rfl).trans (grp3_at x1 x2 x3 x4 j e)
  · exact (cat8_at _ _ _ _ _ _ _ _ _ j e 4 (by decide) _ rfl rfl).trans (grp4_at x1 x2 x3 x4 j e)
  · exact (cat8_at _ _ _ _ _ _ _ _ _ j e 5 (by decide) _ rfl rfl).trans (grp5_at x1 x2 x3 x4 j e)
  · exact (cat8_at _ _ _ _ _ _ _ _ _ j e 6 (by decide) _ rfl rfl).trans (grp6_at x1 x2 x3 x4 j e)
  · exact (cat8_at _ _ _ _ _ _ _ _ _ j e 7 (by decide) _ rfl rfl).trans (grp7_at x1 x2 x3 x4 j e)

/-! ## The product's operand indices: the left operand at (row of the result, contraction position), the right operand at
    (column of the result, contraction position) -/

theorem lhsK_0 (i : S32x512.Idx) (q : dot_S32x1024_S512x1024_S32x512_1_1_0_0_n_n.contr.Idx) :
    (dot_S32x1024_S512x1024_S32x512_1_1_0_0_n_n.lhsIdx i q 0).val = (i 0).val := by
  unfold DotDims.lhsIdx
  rw [dif_neg (show ¬(0 : Fin S32x1024.rank) ∈ dot_S32x1024_S512x1024_S32x512_1_1_0_0_n_n.lhsBatch by decide),
    dif_pos (show (0 : Fin S32x1024.rank) ∈ dot_S32x1024_S512x1024_S32x512_1_1_0_0_n_n.lhsNonContracting by decide)]
  rfl
theorem lhsK_1 (i : S32x512.Idx) (q : dot_S32x1024_S512x1024_S32x512_1_1_0_0_n_n.contr.Idx) :
    (dot_S32x1024_S512x1024_S32x512_1_1_0_0_n_n.lhsIdx i q 1).val = (q ⟨0, by decide⟩).val :=
  dot_S32x1024_S512x1024_S32x512_1_1_0_0_n_n.lhsIdx_val_of_single rfl i q
theorem rhsK_0 (i : S32x512.Idx) (q : dot_S32x1024_S512x1024_S32x512_1_1_0_0_n_n.contr.Idx) :
    (dot_S32x1024_S512x1024_S32x512_1_1_0_0_n_n.rhsIdx i q 0).val = (i 1).val := by
  unfold DotDims.rhsIdx
  rw [dif_neg (show ¬(0 : Fin S512x1024.rank) ∈ dot_S32x1024_S512x1024_S32x512_1_1_0_0_n_n.rhsBatch by decide),
    dif_pos (show (0 : Fin S512x1024.rank) ∈ dot_S32x1024_S512x1024_S32x512_1_1_0_0_n_n.rhsNonContracting by decide)]
  rfl
theorem rhsK_1 (i : S32x512.Idx) (q : dot_S32x1024_S512x1024_S32x512_1_1_0_0_n_n.contr.Idx) :
    (dot_S32x1024_S512x1024_S32x512_1_1_0_0_n_n.rhsIdx i q 1).val = (q ⟨0, by decide⟩).val :=
  dot_S32x1024_S512x1024_S32x512_1_1_0_0_n_n.rhsIdx_val_of_single rfl i q

/-- The product onto the zero accumulator, at (a, j): the sum over the 1024 columns of row `a` of the left operand
    against row `j` of the right one (a change of float format does not change an extended real). -/
theorem matmulK_at (x0 : Vec Ideal S32x1024 .f32) (y : FVec Ideal S512x1024 .f32) (a : Fin 32) (j : Fin 512) :
    matmul dot_S32x1024_S512x1024_S32x512_1_1_0_0_n_n none (truncf .bf16 x0 bitsLt_bf16_f32)
        (truncf .bf16 y bitsLt_bf16_f32) (constant S32x512 .f32 0x00000000#32) (ix2 a j)
      = ∑ l : Fin 1024, x0 (ix2 a l) * y (ix2 j l) := by
  refine (Ideal.matmul_constant_zero_apply dot_S32x1024_S512x1024_S32x512_1_1_0_0_n_n none _ _ (ix2 a j)).trans ?_
  rw [← Equiv.sum_comp (contrEquiv1 dot_S32x1024_S512x1024_S32x512_1_1_0_0_n_n 1024 rfl rfl).symm]
  refine Finset.sum_congr rfl fun k _ => ?_
  have hk := contrEquiv1_symm_val dot_S32x1024_S512x1024_S32x512_1_1_0_0_n_n 1024 rfl rfl k
  have el : dot_S32x1024_S512x1024_S32x512_1_1_0_0_n_n.lhsIdx (ix2 a j) ((contrEquiv1 dot_S32x1024_S512x1024_S32x512_1_1_0_0_n_n 1024 rfl rfl).symm k) = ix2 a k :=
    funext fun b => Fin.ext (by
      match b with
      | ⟨0, _⟩ => exact lhsK_0 _ _
      | ⟨1, _⟩ => exact (lhsK_1 _ _).trans hk)
  have er : dot_S32x1024_S512x1024_S32x512_1_1_0_0_n_n.rhsIdx (ix2 a j) ((contrEquiv1 dot_S32x1024_S512x1024_S32x512_1_1_0_0_n_n 1024 rfl rfl).symm k) = ix2 j k :=
    funext fun b => Fin.ext (by
      match b with
      | ⟨0, _⟩ => exact rhsK_0 _ _
      | ⟨1, _⟩ => exact (rhsK_1 _ _).trans hk)
  rw [el, er]
  rfl

/-- The point's partial product at (a, j) is the block specification's dot product. -/
theorem partialK_at (x0 : Vec Ideal S32x1024 .f32) (x1 x2 : Vec Ideal S512x1024 .f32) (x3 x4 : Vec Ideal S8x512 .f32) (a : Fin 32)
    (j : Fin 512) : partialK (F := Ideal) x0 x1 x2 x3 x4 (ix2 a j) = Cert.Quant.dotBlk x0 x1 x2 x3 x4 a j := by
  rw [partialK_eq, matmulK_at]
  unfold Cert.Quant.dotBlk
  exact Finset.sum_congr rfl fun l _ => by rw [catK_at]

end Cert.KernelIdeal.GroupValue

end
-- ==== Proof.BlockReads.lean ====
/-
  What a grid point's input blocks hold, entry by entry, in terms of the argument arrays. Point `t` of the 8 × 4
  grid is column tile `n = t / 4` of the result (rows `512·n …` of the weights) and run `k = t % 4` of the
  contraction (columns `1024·k …`). The scale blocks are cut from the [32, 4096] transposes of the flat scale
  vectors reshaped to [4096, 32], so entry (g, j) of a scale block is the flat entry `32·(512·n + j) + (8·k + g)`.
-/
import proofs.«106327_j33122787787467_1_alg».proof.Proof.Gen.KernelIdeal.Frame
import proofs.«106327_j33122787787467_1_alg».proof.Proof.BlockSpec
import Idealize.ShloMosaic.Lib.Pipeline.Value
import Idealize.ShloMosaic.Lib.ValueIdx
import Idealize.ShloMosaic.Lib.StableHlo.Run

set_option maxRecDepth 16384

noncomputable section

namespace Cert.Quant

/-- Row `512·n + j` of the weights: row `j` of column tile `n`'s block. -/
abbrev rowAt (n : Fin 8) (j : Fin 512) : Fin 4096 := ⟨512 * n.val + j.val, by omega⟩

/-- Group `8·k + g` of a weight row: group `g` of run `k`'s block. -/
abbrev grpAt (k : Fin 4) (g : Fin 8) : Fin 32 := ⟨8 * k.val + g.val, by omega⟩

end Cert.Quant

namespace Cert.KernelIdeal.BlockReads

open Cert.KernelIdeal Cert.KernelIdeal.Gen Idealize.ShloMosaic Idealize.ShloMosaic.TcCoe Idealize.SL.Sem Idealize.ShloMosaic.ValueIdx
open Cert.Quant (rowAt grpAt runCol scaleAt)

variable (m : (ℓ : Loc nD τ sig) → Buf (Elt Ideal) ℓ)

/-! ## The blocks at their literal types, and the argument arrays -/

abbrev xblk (c : Dev nD) (t : Fin cfg0.N) : Vec Ideal S32x1024 .f32 := iblk m c 0 t
abbrev wblk (c : Dev nD) (t : Fin cfg0.N) : Vec Ideal S512x1024 .f32 := iblk m c 1 t
abbrev vblk (c : Dev nD) (t : Fin cfg0.N) : Vec Ideal S512x1024 .f32 := iblk m c 2 t
abbrev mnblk (c : Dev nD) (t : Fin cfg0.N) : Vec Ideal S8x512 .f32 := iblk m c 3 t
abbrev mxblk (c : Dev nD) (t : Fin cfg0.N) : Vec Ideal S8x512 .f32 := iblk m c 4 t
abbrev bblk (c : Dev nD) (t : Fin cfg0.N) : Vec Ideal S1x512 .f32 := iblk m c 5 t

abbrev argX (c : Dev nD) : Vec Ideal S32x4096 .f32 := m ((c : Thread nD τ).loc main_arg0)
abbrev argW (c : Dev nD) : Vec Ideal S4096x4096 .f32 := m ((c : Thread nD τ).loc main_arg1)
abbrev argB (c : Dev nD) : Vec Ideal S4096 .f32 := m ((c : Thread nD τ).loc main_arg2)
abbrev argV (c : Dev nD) : Vec Ideal S4096x4096 .f32 := m ((c : Thread nD τ).loc main_arg3)
abbrev argMn (c : Dev nD) : Vec Ideal S131072 .f32 := m ((c : Thread nD τ).loc main_arg4)
abbrev argMx (c : Dev nD) : Vec Ideal S131072 .f32 := m ((c : Thread nD τ).loc main_arg5)

/-! ## The index maps over the grid

Point `t` has coordinates (n, k) = (t / 4, t % 4). The `x` window moves with k along its columns only; the weight
and rounding-offset windows sit at block (n, k); the two scale windows at block (k, n) of the transposed scale
arrays; the bias window at block (0, n). Each is a finite statement over the 32 points. -/

theorem index0 : ∀ t : Fin cfg0.N, win0_0.index t (0 : Fin 2) = 0 ∧ win0_0.index t (1 : Fin 2) = t.val % 4 :=
  (by decide +kernel : ∀ t : Fin grid0.N, _)
theorem index1 : ∀ t : Fin cfg0.N, win0_1.index t (0 : Fin 2) = t.val / 4 ∧ win0_1.index t (1 : Fin 2) = t.val % 4 :=
  (by decide +kernel : ∀ t : Fin grid0.N, _)
theorem index2 : ∀ t : Fin cfg0.N, win0_2.index t (0 : Fin 2) = t.val / 4 ∧ win0_2.index t (1 : Fin 2) = t.val % 4 :=
  (by decide +kernel : ∀ t : Fin grid0.N, _)
theorem index3 : ∀ t : Fin cfg0.N, win0_3.index t (0 : Fin 2) = t.val % 4 ∧ win0_3.index t (1 : Fin 2) = t.val / 4 :=
  (by decide +kernel : ∀ t : Fin grid0.N, _)
theorem index4 : ∀ t : Fin cfg0.N, win0_4.index t (0 : Fin 2) = t.val % 4 ∧ win0_4.index t (1 : Fin 2) = t.val / 4 :=
  (by decide +kernel : ∀ t : Fin grid0.N, _)
theorem index5 : ∀ t : Fin cfg0.N, win0_5.index t (0 : Fin 2) = 0 ∧ win0_5.index t (1 : Fin 2) = t.val / 4 :=
  (by decide +kernel : ∀ t : Fin grid0.N, _)

/-! ## The arrays written before the region

The two scale windows and the bias window are cut from arrays computed from the arguments first: each flat scale
vector reshaped to [4096, 32] and transposed to [32, 4096], the bias reshaped to one row. -/

/-- The lower scales as the region finds them: the flat vector reshaped to [4096, 32], transposed. -/
theorem V_main_v1 (c : Dev nD) : (V m c main_v1 : Vec Ideal S32x4096 .f32)
    = transpose S32x4096 [1, 0] (shapeCast S4096x32 (argMn m c) shapeCasts_S131072_S4096x32) transposes_S4096x32_S32x4096_1_0 := by
  dsimp only [Gen.V, Gen.hostOps0]
  after_results
  rfl

/-- The upper scales as the region finds them: the same of the other flat vector. -/
theorem V_main_v3 (c : Dev nD) : (V m c main_v3 : Vec Ideal S32x4096 .f32)
    = transpose S32x4096 [1, 0] (shapeCast S4096x32 (argMx m c) shapeCasts_S131072_S4096x32) transposes_S4096x32_S32x4096_1_0 := by
  dsimp only [Gen.V, Gen.hostOps0]
  after_results
  rfl

/-- The bias as the region finds it: one row of 4096. -/
theorem V_main_v4 (c : Dev nD) : (V m c main_v4 : Vec Ideal S1x4096 .f32)
    = shapeCast S1x4096 (argB m c) shapeCasts_S4096_S1x4096 := by
  dsimp only [Gen.V, Gen.hostOps0]
  after_results
  rfl

/-- A flat vector of 131072 reshaped to [4096, 32] and transposed, read at (q, o): the reshape puts flat entry
    `32·o + q` at (o, q), the transpose moves it to (q, o). -/
theorem scaleT_at (x : Vec Ideal S131072 .f32) (q : Fin 32) (o : Fin 4096) :
    transpose S32x4096 [1, 0] (shapeCast S4096x32 x shapeCasts_S131072_S4096x32) transposes_S4096x32_S32x4096_1_0 (ix2 q o)
      = x (ix1 (scaleAt o q)) := by
  rw [transpose_apply [1, 0] _ transposes_S4096x32_S32x4096_1_0 (ix2 q o) (ix2 o q)
    (fun b => match b with | ⟨0, _⟩ => rfl | ⟨1, _⟩ => rfl)]
  refine shapeCast_apply x shapeCasts_S131072_S4096x32 (ix2 o q) (ix1 (scaleAt o q)) ?_
  rw [Shape.rowMajor_val_one, Shape.rowMajor_val_two]
  show 32 * o.val + q.val = o.val * 32 + q.val
  omega

/-! ## Each block read at an entry

Entry `y` of a window's block at `t` is the array's entry `index · size + y`, coordinate by coordinate. -/

/-- The `x` block of run `k`: all 32 rows, columns `1024·k …`. -/
theorem xblk_at (c : Dev nD) (t : Fin cfg0.N) (k : Fin 4) (hk : t.val % 4 = k.val) (a : Fin 32) (l : Fin 1024) :
    xblk m c t (ix2 a l) = argX m c (ix2 a (runCol k l)) := by
  show (iblk m c 0 t) (ix2 a l) = _
  unfold iblk
  rw [View.read_apply]
  show V m c main_arg0 _ = m _ _
  rw [V_main_arg0]
  congr 1
  funext b
  apply Fin.ext
  match b with
  | ⟨0, _⟩ => show win0_0.index t 0 * 32 + 1 * a.val = a.val; rw [(index0 t).1]; omega
  | ⟨1, _⟩ => show win0_0.index t 1 * 1024 + 1 * l.val = 1024 * k.val + l.val; rw [(index0 t).2]; omega

/-- The weight block of tile `n`, run `k`. -/
theorem wblk_at (c : Dev nD) (t : Fin cfg0.N) (n : Fin 8) (k : Fin 4) (hn : t.val / 4 = n.val) (hk : t.val % 4 = k.val) (j : Fin 512)
    (l : Fin 1024) : wblk m c t (ix2 j l) = argW m c (ix2 (rowAt n j) (runCol k l)) := by
  show (iblk m c 1 t) (ix2 j l) = _
  unfold iblk
  rw [View.read_apply]
  show V m c main_arg1 _ = m _ _
  rw [V_main_arg1]
  congr 1
  funext b
  apply Fin.ext
  match b with
  | ⟨0, _⟩ => show win0_1.index t 0 * 512 + 1 * j.val = 512 * n.val + j.val; rw [(index1 t).1]; omega
  | ⟨1, _⟩ => show win0_1.index t 1 * 1024 + 1 * l.val = 1024 * k.val + l.val; rw [(index1 t).2]; omega

/-- The rounding-offset block of tile `n`, run `k`. -/
theorem vblk_at (c : Dev nD) (t : Fin cfg0.N) (n : Fin 8) (k : Fin 4) (hn : t.val / 4 = n.val) (hk : t.val % 4 = k.val) (j : Fin 512)
    (l : Fin 1024) : vblk m c t (ix2 j l) = argV m c (ix2 (rowAt n j) (runCol k l)) := by
  show (iblk m c 2 t) (ix2 j l) = _
  unfold iblk
  rw [View.read_apply]
  show V m c main_arg3 _ = m _ _
  rw [V_main_arg3]
  congr 1
  funext b
  apply Fin.ext
  match b with
  | ⟨0, _⟩ => show win0_2.index t 0 * 512 + 1 * j.val = 512 * n.val + j.val; rw [(index2 t).1]; omega
  | ⟨1, _⟩ => show win0_2.index t 1 * 1024 + 1 * l.val = 1024 * k.val + l.val; rw [(index2 t).2]; omega

/-- The lower-scale block of tile `n`, run `k`: group by row. -/
theorem mnblk_at (c : Dev nD) (t : Fin cfg0.N) (n : Fin 8) (k : Fin 4) (hn : t.val / 4 = n.val) (hk : t.val % 4 = k.val) (g : Fin 8)
    (j : Fin 512) : mnblk m c t (ix2 g j) = argMn m c (ix1 (scaleAt (rowAt n j) (grpAt k g))) := by
  show (iblk m c 3 t) (ix2 g j) = _
  unfold iblk
  rw [View.read_apply]
  show V m c main_v1 _ = _
  rw [V_main_v1]
  refine Eq.trans ?_ (scaleT_at (argMn m c) (grpAt k g) (rowAt n j))
  congr 1
  funext b
  apply Fin.ext
  match b with
  | ⟨0, _⟩ => show win0_3.index t 0 * 8 + 1 * g.val = 8 * k.val + g.val; rw [(index3 t).1]; omega
  | ⟨1, _⟩ => show win0_3.index t 1 * 512 + 1 * j.val = 512 * n.val + j.val; rw [(index3 t).2]; omega

/-- The upper-scale block of tile `n`, run `k`: group by row. -/
theorem mxblk_at (c : Dev nD) (t : Fin cfg0.N) (n : Fin 8) (k : Fin 4) (hn : t.val / 4 = n.val) (hk : t.val % 4 = k.val) (g : Fin 8)
    (j : Fin 512) : mxblk m c t (ix2 g j) = argMx m c (ix1 (scaleAt (rowAt n j) (grpAt k g))) := by
  show (iblk m c 4 t) (ix2 g j) = _
  unfold iblk
  rw [View.read_apply]
  show V m c main_v3 _ = _
  rw [V_main_v3]
  refine Eq.trans ?_ (scaleT_at (argMx m c) (grpAt k g) (rowAt n j))
  congr 1
  funext b
  apply Fin.ext
  match b with
  | ⟨0, _⟩ => show win0_4.index t 0 * 8 + 1 * g.val = 8 * k.val + g.val; rw [(index4 t).1]; omega
  | ⟨1, _⟩ => show win0_4.index t 1 * 512 + 1 * j.val = 512 * n.val + j.val; rw [(index4 t).2]; omega

/-- The bias block of tile `n`: one row of 512. -/
theorem bblk_at (c : Dev nD) (t : Fin cfg0.N) (n : Fin 8) (hn : t.val / 4 = n.val) (j : Fin 512) :
    bblk m c t (ix2 0 j) = argB m c (ix1 (rowAt n j)) := by
  show (iblk m c 5 t) (ix2 0 j) = _
  unfold iblk
  rw [View.read_apply]
  show V m c main_v4 _ = _
  rw [V_main_v4]
  -- the row's entry 512·n + j has the same row-major position in the flat vector
  refine shapeCast_apply (argB m c) shapeCasts_S4096_S1x4096 _ (ix1 (rowAt n j)) ?_
  rw [Shape.rowMajor_val_one, Shape.rowMajor_val_two]
  show 512 * n.val + j.val = (win0_5.index t 0 * 1 + 1 * 0) * 4096 + (win0_5.index t 1 * 512 + 1 * j.val)
  rw [(index5 t).1, (index5 t).2]
  omega

end Cert.KernelIdeal.BlockReads

end
-- ==== Proof.Accumulate.lean ====
/-
  The carried accumulator over a run of four grid points, and the output block at the run's last point.
  A run starts at a point `b` divisible by 4: the accumulator is zeroed and the point's partial product added; each
  of the next three points adds its own; at the last one the output block is the accumulator plus the bias row. So
  the block written back is ((((0 + P b) + P (b+1)) + P (b+2)) + P (b+3)) + bias, entry by entry.
-/
import proofs.«106327_j33122787787467_1_alg».proof.Proof.Pieces
import proofs.«106327_j33122787787467_1_alg».proof.Proof.PartialProduct
import proofs.«106327_j33122787787467_1_alg».proof.Proof.BlockReads
import proofs.«106327_j33122787787467_1_alg».proof.Proof.Gen.KernelIdeal.Value
import Idealize.ShloMosaic.Lib.Pipeline.Value
import Idealize.ShloMosaic.Lib.ValueIdx
import Idealize.ShloMosaic.PureOps.Ideal.Laws

set_option maxRecDepth 16384

noncomputable section

namespace Cert.KernelIdeal.Accumulate

open Cert.KernelIdeal Cert.KernelIdeal.Gen Cert.KernelIdeal.Terms Cert.KernelIdeal.Pieces Cert.KernelIdeal.BlockReads
  Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## The two small payloads, entry by entry -/

/-- Adding a partial product to the accumulator, at an entry. -/
theorem add_at (p : FVec Ideal S32x512 .f32) (acc : Vec Ideal S32x512 .f32) (i : S32x512.Idx) :
    k0_pay1 (F := Ideal) p acc i = acc i + p i := by
  unfold k0_pay1
  rw [shapeCast_self]
  rfl

/-- The zeroed accumulator, at an entry. -/
theorem zero_at (i : S32x512.Idx) : k0_pay3 (F := Ideal) i = 0 := by
  unfold k0_pay3
  rw [shapeCast_self]
  exact Ideal.ofBits_zero_f32

/-- The accumulator plus the bias row, at an entry. -/
theorem bias_at (acc : Vec Ideal S32x512 .f32) (b : Vec Ideal S1x512 .f32) (a : Fin 32) (j : Fin 512) :
    k0_pay2 (F := Ideal) acc b (ix2 a j) = acc (ix2 a j) + b (ix2 0 j) := by
  unfold k0_pay2
  rw [shapeCast_self]
  refine congrArg (fun z => acc (ix2 a j) + z) ?_
  exact broadcastTo_apply (s := S1x512) (t := S32x512) b _ (ix2 a j) (ix2 0 j) (fun d => by match d with | ⟨0, _⟩ => rfl | ⟨1, _⟩ => rfl)

/-! ## A point's step of the accumulator -/

/-- The partial product of point `t`, over its blocks. -/
abbrev ptProd (c : Dev nD) (t : Fin cfg0.N) : FVec Ideal S32x512 .f32 :=
  partialK (F := Ideal) (xblk m c t) (wblk m c t) (vblk m c t) (mnblk m c t) (mxblk m c t)

/-- At a run's first point the accumulator restarts from zero, whatever it held. -/
theorem scAt_first (c : Dev nD) (n : ℕ) (hb : n < cfg0.N) (h0 : n % 4 = 0) (acc : Vec Ideal S32x512 .f32) :
    Value.scAt0_0 m c n hb acc = k0_pay1 (ptProd m c ⟨n, hb⟩) (k0_pay3 (F := Ideal)) := by
  have h1 : ¬ n % 4 = 3 := by omega
  unfold Value.scAt0_0
  rw [dif_pos h0, dif_neg h1]
  exact soutA (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N))

/-- At every other point it takes the point's partial product on top of what it held. -/
theorem scAt_step (c : Dev nD) (n : ℕ) (hb : n < cfg0.N) (h0 : ¬ n % 4 = 0) (acc : Vec Ideal S32x512 .f32) :
    Value.scAt0_0 m c n hb acc = k0_pay1 (ptProd m c ⟨n, hb⟩) acc := by
  unfold Value.scAt0_0
  rw [dif_neg h0]
  by_cases h1 : n % 4 = 3
  · rw [dif_pos h1]
    exact soutC (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc
  · rw [dif_neg h1]
    exact soutB (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) _ _ (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc

/-! ## A run of four points -/

/-- Point `n`'s partial product; zero past the grid. -/
def prodAt (c : Dev nD) (n : ℕ) : S32x512.Idx → EReal :=
  if h : n < cfg0.N then ptProd m c ⟨n, h⟩ else fun _ => 0

/-- The accumulator `j` points into the run that starts at point `b`: the partial products added one after the
    other to 0. -/
def runSum (c : Dev nD) (b : ℕ) : ℕ → S32x512.Idx → EReal
  | 0 => fun i => 0 + prodAt m c b i
  | j + 1 => fun i => runSum c b j i + prodAt m c (b + (j + 1)) i

/-- The fold of the accumulator's steps over a run that starts at a point divisible by 4 is that sum. -/
theorem acc_run (c : Dev nD) (b : ℕ) (hb0 : b % 4 = 0) (J : Vec Ideal S32x512 .f32) :
    ∀ (j : ℕ) (_ : j < 4) (h : b + j < cfg0.N),
      Pipeline.accAt (fun n h => Value.scAt0_0 m c n h J) (Value.scAt0_0 m c) b j h = runSum m c b j
  | 0, _, h => by
      funext i
      rw [Pipeline.accAt_zero, scAt_first m c b h hb0 J, add_at, zero_at]
      show (0 : EReal) + ptProd m c ⟨b, h⟩ i = runSum m c b 0 i
      unfold runSum prodAt
      rw [dif_pos (show b < cfg0.N from h)]
  | j + 1, hj, h => by
      funext i
      rw [Pipeline.accAt_succ, scAt_step m c (b + (j + 1)) h (by omega) _, add_at,
        acc_run c b hb0 J j (by omega) (Nat.lt_of_succ_lt h)]
      show runSum m c b j i + ptProd m c ⟨b + (j + 1), h⟩ i = runSum m c b (j + 1) i
      conv_rhs => unfold runSum
      unfold prodAt
      rw [dif_pos h]

/-- The accumulator after any point is the sum of its run so far. -/
theorem acc_at (c : Dev nD) (t : Fin cfg0.N) :
    (outsAt0 m c t.val t.isLt).2 = runSum m c (4 * (t.val / 4)) (t.val % 4) := by
  rw [Value.soutsAt0_0_eq m c t]
  exact acc_run m c (4 * (t.val / 4)) (by omega) _ (t.val % 4) (Nat.mod_lt _ (by decide)) _

/-- At a run's last point the output block is the accumulator it leaves plus the bias row. -/
theorem out_last (c : Dev nD) (t : Fin cfg0.N) (h0 : ¬ t.val % 4 = 0) (h1 : t.val % 4 = 3) :
    (outsAt0 m c t.val t.isLt).1 = k0_pay2 (F := Ideal) (outsAt0 m c t.val t.isLt).2 (bblk m c t) := by
  rw [outsAt0_C m c t h0 h1]
  dsimp only
  rw [outC (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) _ _ (iblk m c 0 t) (iblk m c 1 t) (iblk m c 2 t) (iblk m c 3 t) (iblk m c 4 t) (iblk m c 5 t) _, soutC (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) _ _ (iblk m c 0 t) (iblk m c 1 t) (iblk m c 2 t) (iblk m c 3 t) (iblk m c 4 t) (iblk m c 5 t) _]

/-! ## From the blocks to the arrays -/

open Cert.Quant in
/-- A point's block-level dot product is the array-level partial dot product of its column tile and run. -/
theorem dotBlk_pt (c : Dev nD) (t : Fin cfg0.N) (n : Fin 8) (k : Fin 4) (hn : t.val / 4 = n.val) (hk : t.val % 4 = k.val) (a : Fin 32)
    (j : Fin 512) :
    dotBlk (xblk m c t) (wblk m c t) (vblk m c t) (mnblk m c t) (mxblk m c t) a j
      = partialDot (argX m c) (argW m c) (argV m c) (argMn m c) (argMx m c) a (rowAt n j) k := by
  unfold dotBlk partialDot
  refine Finset.sum_congr rfl fun l _ => ?_
  have hq : grpOf (runCol k l) = grpAt k (colGrp l) := Fin.ext (by show (1024 * k.val + l.val) / 128 = 8 * k.val + l.val / 128; omega)
  have hl : blkCol (colGrp l) (colEnt l) = l := Fin.ext (by show 128 * (l.val / 128) + l.val % 128 = l.val; omega)
  have hc : ∀ e : Fin 128, runCol k (blkCol (colGrp l) e) = grpCol (grpAt k (colGrp l)) e := fun e =>
    Fin.ext (by show 1024 * k.val + (128 * (l.val / 128) + e.val) = 128 * (8 * k.val + l.val / 128) + e.val; omega)
  have hrow : blkRow (wblk m c t) j (colGrp l) = grpRow (argW m c) (rowAt n j) (grpAt k (colGrp l)) := by
    funext e
    unfold blkRow grpRow
    rw [wblk_at m c t n k hn hk, hc]
  have hlo : lowBlk (wblk m c t) (mnblk m c t) j (colGrp l) = lowOf (argW m c) (argMn m c) (rowAt n j) (grpAt k (colGrp l)) := by
    unfold lowBlk lowOf grpMin
    rw [hrow, mnblk_at m c t n k hn hk]
  have hhi : highBlk (wblk m c t) (mxblk m c t) j (colGrp l) = highOf (argW m c) (argMx m c) (rowAt n j) (grpAt k (colGrp l)) := by
    unfold highBlk highOf grpMax
    rw [hrow, mxblk_at m c t n k hn hk]
  unfold wqBlk wq
  rw [xblk_at m c t k hk, hlo, hhi, hl, wblk_at m c t n k hn hk, vblk_at m c t n k hn hk, hq]

end Cert.KernelIdeal.Accumulate

end
-- ==== Proof.Final.lean ====
/-
  The kernel's result array after the run is the blocked arrangement of the arguments. The output window is written
  back only at each run's last point; point `4·n + 3` writes the 32 × 512 block of column tile `n`, and the eight
  tiles cover the 32 × 4096 array. Entry (a, 512·n + j) is the four partial dot products of the tile's run added one
  after the other to 0, plus the bias entry.
-/
import proofs.«106327_j33122787787467_1_alg».proof.Proof.Accumulate

set_option maxRecDepth 16384

noncomputable section

namespace Cert.KernelIdeal.Final

open Cert.KernelIdeal Cert.KernelIdeal.Gen Cert.KernelIdeal.Terms Cert.KernelIdeal.BlockReads Cert.KernelIdeal.Accumulate
  Idealize.ShloMosaic Idealize.ShloMosaic.TcCoe Idealize.SL.Sem Idealize.ShloMosaic.ValueIdx
open Idealize.ShloMosaic.Pipeline (Dat)
open Cert.Quant (rowAt outBlocked partialDot)

variable (m : (ℓ : Loc nD τ sig) → Buf (Elt Ideal) ℓ) (ρ : Dev nD → PrngReg)

/-- The result array: the blocked arrangement of the six argument arrays. -/
abbrev result (c : Dev nD) : Buf (Elt Ideal) ((c : Thread nD τ).loc main_v5) :=
  outBlocked (argX m c) (argW m c) (argB m c) (argV m c) (argMn m c) (argMx m c)

/-- Point `4·n + k`'s partial product at (a, j) is the array-level partial dot product of tile `n`, run `k`. -/
theorem prodAt_eq (c : Dev nD) (p : ℕ) (n : Fin 8) (k : Fin 4) (hp : p = 4 * n.val + k.val) (a : Fin 32) (j : Fin 512) :
    prodAt m c p (ix2 a j) = partialDot (argX m c) (argW m c) (argV m c) (argMn m c) (argMx m c) a (rowAt n j) k := by
  subst hp
  have h : 4 * n.val + k.val < cfg0.N := lt_of_lt_of_eq (by omega : 4 * n.val + k.val < 32) N_0.symm
  unfold prodAt
  rw [dif_pos h]
  show partialK (F := Ideal) _ _ _ _ _ (ix2 a j) = _
  rw [GroupValue.partialK_at]
  exact dotBlk_pt m c ⟨4 * n.val + k.val, h⟩ n k (by show (4 * n.val + k.val) / 4 = n.val; omega)
    (by show (4 * n.val + k.val) % 4 = k.val; omega) a j

/-- The output block at a run's last point, entry by entry, is the result array's tile. -/
theorem out_entry (c : Dev nD) (t : Fin cfg0.N) (n : Fin 8) (hn : t.val / 4 = n.val) (h3 : t.val % 4 = 3) (a : Fin 32) (j : Fin 512) :
    (outsAt0 m c t.val t.isLt).1 (ix2 a j) = result m c (ix2 a (rowAt n j)) := by
  have h0 : ¬ t.val % 4 = 0 := by omega
  rw [out_last m c t h0 h3, bias_at, acc_at m c t, h3, hn, bblk_at m c t n hn j]
  show ((((0 + prodAt m c (4 * n.val) (ix2 a j)) + prodAt m c (4 * n.val + 1) (ix2 a j)) + prodAt m c (4 * n.val + 2) (ix2 a j))
      + prodAt m c (4 * n.val + 3) (ix2 a j)) + argB m c (ix1 (rowAt n j)) = _
  rw [prodAt_eq m c (4 * n.val) n 0 rfl, prodAt_eq m c (4 * n.val + 1) n 1 rfl, prodAt_eq m c (4 * n.val + 2) n 2 rfl,
    prodAt_eq m c (4 * n.val + 3) n 3 rfl]
  rfl

/-- The output window's index map over the grid: tile `t / 4` of the one row of tiles. -/
theorem index6 : ∀ t : Fin cfg0.N, win0_6.index t (0 : Fin 2) = 0 ∧ win0_6.index t (1 : Fin 2) = t.val / 4 :=
  (by decide +kernel : ∀ t : Fin grid0.N, win0_6.index t (0 : Fin 2) = 0 ∧ win0_6.index t (1 : Fin 2) = t.val / 4)

/-- What a run's last point writes back is its tile of the result array. -/
theorem flushed_eq (c : Dev nD) (t : Fin cfg0.N) (hf : (cfg0.win 6).flush t = true) :
    (dats m 0 c).flushed 6 t = ((cfg0.win 6).blk t).view.read (Elt Ideal) (result m c) := by
  have h3 : t.val % 4 = 3 := (flush0_6 t).mp hf
  have hN : t.val < 32 := lt_of_lt_of_eq t.isLt N_0
  rw [Value.flushed6]
  funext y
  show (outsAt0 m c t.val t.isLt).1 y = result m c (((cfg0.win 6).blk t).view.emb y)
  have hy : y = ix2 (n0 := 32) (n1 := 512) (y 0) (y 1) := eq_ix2 (n0 := 32) (n1 := 512) y
  have he : ((cfg0.win 6).blk t).view.emb y = ix2 (n0 := 32) (n1 := 4096) (y 0) (rowAt ⟨t.val / 4, by omega⟩ (y 1)) := by
    funext d; apply Fin.ext
    match d with
    | ⟨0, _⟩ => show win0_6.index t (0 : Fin 2) * 32 + 1 * (y 0).val = (y 0).val; rw [(index6 t).1]; omega
    | ⟨1, _⟩ => show win0_6.index t (1 : Fin 2) * 512 + 1 * (y 1).val = 512 * (t.val / 4) + (y 1).val; rw [(index6 t).2]; omega
  rw [he, hy]
  exact out_entry m c t ⟨t.val / 4, by omega⟩ rfl h3 (y 0) (y 1)

/-- An index of the array is in point `t`'s block iff each coordinate is in the block's range on its axis. -/
theorem mem_blk6 (t : Fin cfg0.N) (i : S32x4096.Idx) :
    i ∈ ((cfg0.win 6).blk t).view.set ↔ ∀ a : Fin 2, win0_6.index t a * S32x512.size a ≤ (i a).val ∧ (i a).val < win0_6.index t a * S32x512.size a + S32x512.size a := by
  show i ∈ ((View.whole main_v5).slice (win0_6.rect t)).set ↔ _
  rw [View.set_slice_whole, Rect.mem_set_unit]
  exact Iff.rfl

/-- Every entry of the array lies in the tile some run's last point writes back. -/
theorem cover (i : S32x4096.Idx) : ∃ t : Fin cfg0.N, (cfg0.win 6).flush t = true ∧ i ∈ ((cfg0.win 6).blk t).view.set := by
  have hi0 : (i 0).val < 32 := (i 0).isLt
  have hi1 : (i 1).val < 4096 := (i 1).isLt
  have ht : 4 * ((i 1).val / 512) + 3 < cfg0.N := lt_of_lt_of_eq (by omega : 4 * ((i 1).val / 512) + 3 < 32) N_0.symm
  refine ⟨⟨4 * ((i 1).val / 512) + 3, ht⟩, (flush0_6 _).mpr (by show (4 * ((i 1).val / 512) + 3) % 4 = 3; omega), ?_⟩
  rw [mem_blk6]
  intro d
  have q := index6 ⟨4 * ((i 1).val / 512) + 3, ht⟩
  have q1 : win0_6.index ⟨4 * ((i 1).val / 512) + 3, ht⟩ (1 : Fin 2) = (i 1).val / 512 := by
    rw [q.2]; show (4 * ((i 1).val / 512) + 3) / 4 = (i 1).val / 512; omega
  match d with
  | ⟨0, _⟩ =>
    show win0_6.index ⟨4 * ((i 1).val / 512) + 3, ht⟩ (0 : Fin 2) * 32 ≤ (i 0).val ∧ (i 0).val < win0_6.index ⟨4 * ((i 1).val / 512) + 3, ht⟩ (0 : Fin 2) * 32 + 32
    rw [q.1]; omega
  | ⟨1, _⟩ =>
    show win0_6.index ⟨4 * ((i 1).val / 512) + 3, ht⟩ (1 : Fin 2) * 512 ≤ (i 1).val ∧ (i 1).val < win0_6.index ⟨4 * ((i 1).val / 512) + 3, ht⟩ (1 : Fin 2) * 512 + 512
    rw [q1]; omega

/-- The array after the run. -/
theorem final6 (c : Dev nD) : (dats m 0 c).arrAt 6 cfg0.N = result m c :=
  (dats m 0 c).arrAt_eq_of_cover 6 (result m c) (fun t hf => flushed_eq m c t hf) cover

/-- The kernel's run re-posted: the result array is the blocked arrangement of the arguments, which end unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m c), (h c).2⟩) (Value.run_blocks m ρ)

end Cert.KernelIdeal.Final

end
-- ==== Proof.RefPlain.lean ====
/-
  The reference program's result, read one operation at a time, is the plain arrangement: per row and group the
  clamp, the two range ends, the step, the straight-through zero point and the straight-through dequantized entry,
  then one sum over the 4096 columns and the bias.
-/
import proofs.«106327_j33122787787467_1_alg».proof.Proof.Gen.ReferenceIdeal.Read
import proofs.«106327_j33122787787467_1_alg».proof.Proof.QuantSpec

noncomputable section

namespace Cert.ReferenceIdeal.RefValue

open Cert.ReferenceIdeal Cert.ReferenceIdeal.Gen Idealize.ShloMosaic Idealize.ShloMosaic.TcCoe Idealize.ShloMosaic.ValueIdx

open Cert.Quant

/-! ## Where each layout operation reads

The weights are cut row-major: entry `(o, c)` of the `4096 × 4096` array is entry `(32·o + c / 128, c % 128)` of the
`131072 × 128` array, and back. -/

/-- The place of a column inside its group. -/
abbrev lane (c : Fin 4096) : Fin 128 := ⟨c.val % 128, Nat.mod_lt _ (by norm_num)⟩

/-- A column is entry `lane c` of group `grpOf c`. -/
theorem grpCol_grpOf_lane (c : Fin 4096) : grpCol (grpOf c) (lane c) = c :=
  Fin.ext (by show 128 * (c.val / 128) + c.val % 128 = c.val; omega)

/-- The left operand of the product is read at row `a`, column `k`. -/
theorem lidx_dot (a : Fin 32) (o k : Fin 4096) : Read.lidx_main_v50 (ix2 a o) k = ix2 a k :=
  funext fun d => match d with | ⟨0, _⟩ => rfl | ⟨1, _⟩ => rfl

/-- The right operand of the product is read at row `k`, column `o`. -/
theorem ridx_dot (a : Fin 32) (o k : Fin 4096) : Read.ridx_main_v50 (ix2 a o) k = ix2 k o :=
  funext fun d => match d with | ⟨0, _⟩ => rfl | ⟨1, _⟩ => rfl

/-- The transpose swaps the two coordinates. -/
theorem idx_transpose (k o : Fin 4096) : Read.idx_main_v49 (ix2 k o) = ix2 o k :=
  funext fun d => match d with | ⟨0, _⟩ => rfl | ⟨1, _⟩ => rfl

/-- Entry `(o, c)` of the square array is entry `(32·o + c / 128, c % 128)` of the grouped one. -/
theorem idx_regroup (o c : Fin 4096) : Read.idx_main_v48 (ix2 o c) = ix2 (scaleAt o (grpOf c)) (lane c) :=
  funext fun d => match d with
    | ⟨0, _⟩ => Fin.ext (by show (o.val * 4096 + c.val) / 128 = 32 * o.val + c.val / 128; omega)
    | ⟨1, _⟩ => Fin.ext (by show (o.val * 4096 + c.val) % 128 = c.val % 128; omega)

/-- Entry `(32·o + q, l)` of the grouped weights is entry `(o, 128·q + l)` of the square ones. -/
theorem idx_group_w (o : Fin 4096) (q : Fin 32) (l : Fin 128) : Read.idx_main_v2 (ix2 (scaleAt o q) l) = ix2 o (grpCol q l) :=
  funext fun d => match d with
    | ⟨0, _⟩ => Fin.ext (by
        have hq := q.isLt; have hl := l.isLt
        show ((32 * o.val + q.val) * 128 + l.val) / 4096 = o.val; omega)
    | ⟨1, _⟩ => Fin.ext (by
        have hq := q.isLt; have hl := l.isLt
        show ((32 * o.val + q.val) * 128 + l.val) % 4096 = 128 * q.val + l.val; omega)

/-- The same for the rounding offsets. -/
theorem idx_group_v (o : Fin 4096) (q : Fin 32) (l : Fin 128) : Read.idx_main_v3 (ix2 (scaleAt o q) l) = ix2 o (grpCol q l) :=
  funext fun d => match d with
    | ⟨0, _⟩ => Fin.ext (by
        have hq := q.isLt; have hl := l.isLt
        show ((32 * o.val + q.val) * 128 + l.val) / 4096 = o.val; omega)
    | ⟨1, _⟩ => Fin.ext (by
        have hq := q.isLt; have hl := l.isLt
        show ((32 * o.val + q.val) * 128 + l.val) % 4096 = 128 * q.val + l.val; omega)

/-- A per-group quantity spread along its group is read at the group. -/
theorem idx_spread35 (r : Fin 131072) (l : Fin 128) : Read.idx_main_v33 (Read.idx_main_v35 (ix2 r l)) = ix1 r :=
  funext fun d => match d with | ⟨0, _⟩ => rfl
theorem idx_spread46 (r : Fin 131072) (l : Fin 128) : Read.idx_main_v33 (Read.idx_main_v46 (ix2 r l)) = ix1 r :=
  funext fun d => match d with | ⟨0, _⟩ => rfl
theorem idx_spread41 (r : Fin 131072) (l : Fin 128) : Read.idx_main_v34 (Read.idx_main_v41 (ix2 r l)) = ix1 r :=
  funext fun d => match d with | ⟨0, _⟩ => rfl
theorem idx_spread44 (r : Fin 131072) (l : Fin 128) : Read.idx_main_v34 (Read.idx_main_v44 (ix2 r l)) = ix1 r :=
  funext fun d => match d with | ⟨0, _⟩ => rfl

/-- The bias is read at the output column. -/
theorem idx_bias (a : Fin 32) (o : Fin 4096) : Read.idx_main_v51 (Read.idx_main_v52 (ix2 a o)) = ix1 o :=
  funext fun d => match d with | ⟨0, _⟩ => rfl

/-! ## The per-group stages -/

/-- The first learned scale, clamped. -/
theorem clamp_lo_at (x4 : (⟨S131072, .f32⟩ : BufTy).Contents (Elt Ideal)) (r : Fin 131072) :
    Read.val_main_v0 (F := Ideal) x4 (ix1 r) = clampScale (x4 (ix1 r)) := by
  rw [Read.val_main_v0_apply, Read.val_main_call0_v4_apply, Read.val_main_call0_v3_apply, Read.val_main_cst_0_apply,
    Read.val_main_call0_v2_apply, Read.val_main_call0_v1_apply, Read.val_main_call0_v0_apply, Read.val_main_cst_apply]
  rfl

/-- The second learned scale, clamped. -/
theorem clamp_hi_at (x5 : (⟨S131072, .f32⟩ : BufTy).Contents (Elt Ideal)) (r : Fin 131072) :
    Read.val_main_v1 (F := Ideal) x5 (ix1 r) = clampScale (x5 (ix1 r)) := by
  rw [Read.val_main_v1_apply, Read.val_main_call1_v4_apply, Read.val_main_call1_v3_apply, Read.val_main_cst_2_apply,
    Read.val_main_call1_v2_apply, Read.val_main_call1_v1_apply, Read.val_main_call1_v0_apply, Read.val_main_cst_1_apply]
  rfl

/-! ## The group's minimum and maximum -/

/-- Dropping the second axis of the grouped array leaves its first. -/
theorem reduces_grouped : S131072x128.Reduces [1] S131072 := by decide

/-- Row `r` with `l` put back on the dropped axis is the entry `(r, l)`. -/
theorem lift_row (r : Fin 131072) (l : Fin 128) : reduces_grouped.lift (ix1 r) l = ix2 r l :=
  funext fun d => match d with
    | ⟨0, _⟩ => Fin.ext ((Shape.Reduces.lift_val _ _ _ _).trans (by simp [Shape.Reduces.liftVal]))
    | ⟨1, _⟩ => Fin.ext ((Shape.Reduces.lift_val _ _ _ _).trans (by simp [Shape.Reduces.liftVal]))

/-- The grouped weights along row `32·o + q` are group `q` of row `o`. -/
theorem row_is_group (x1 : (⟨S4096x4096, .f32⟩ : BufTy).Contents (Elt Ideal)) (o : Fin 4096) (q : Fin 32) :
    (Read.val_main_v2 (F := Ideal) x1 ∘ reduces_grouped.lift (ix1 (scaleAt o q))) = grpRow x1 o q :=
  funext fun (l : Fin 128) =>
    (congrArg (Read.val_main_v2 (F := Ideal) x1) (lift_row (scaleAt o q) l)).trans (by
      rw [Read.val_main_v2_apply, idx_group_w]; rfl)

/-- The minimum over a row of the grouped weights is the group's minimum. -/
theorem grp_min_at (x1 : (⟨S4096x4096, .f32⟩ : BufTy).Contents (Elt Ideal)) (o : Fin 4096) (q : Fin 32) :
    Read.val_main_v4 (F := Ideal) x1 (ix1 (scaleAt o q)) = grpMin x1 o q := by
  unfold Read.val_main_v4
  rw [Host.reduce_eq_fold_single (f := FloatOps.minimumf) _ _ _ reduces_grouped, row_is_group]
  rfl

/-- The maximum over a row of the grouped weights is the group's maximum. -/
theorem grp_max_at (x1 : (⟨S4096x4096, .f32⟩ : BufTy).Contents (Elt Ideal)) (o : Fin 4096) (q : Fin 32) :
    Read.val_main_v10 (F := Ideal) x1 (ix1 (scaleAt o q)) = grpMax x1 o q := by
  unfold Read.val_main_v10
  rw [Host.reduce_eq_fold_single (f := FloatOps.maximumf) _ _ _ reduces_grouped, row_is_group]
  rfl

/-! ## The per-group stages, at row `32·o + q` of the flat vectors -/

section Stages

variable (x1 x3 : (⟨S4096x4096, .f32⟩ : BufTy).Contents (Elt Ideal)) (x4 x5 : (⟨S131072, .f32⟩ : BufTy).Contents (Elt Ideal))
  (o : Fin 4096) (q : Fin 32)

/-- The lower range end `min(gmin, 0) · (clamp mn + 1)`. -/
theorem low_at : Read.val_main_v9 (F := Ideal) x1 x4 (ix1 (scaleAt o q)) = lowOf x1 x4 o q := by
  rw [Read.val_main_v9_apply, Read.val_main_v6_apply, grp_min_at, Read.val_main_v5_apply, Read.val_main_cst_4_apply,
    Read.val_main_v8_apply, clamp_lo_at, Read.val_main_v7_apply, Read.val_main_cst_5_apply]
  rfl

/-- The upper range end `max(gmax, 0) · (clamp mx + 1)`. -/
theorem high_at : Read.val_main_v15 (F := Ideal) x1 x5 (ix1 (scaleAt o q)) = highOf x1 x5 o q := by
  rw [Read.val_main_v15_apply, Read.val_main_v12_apply, grp_max_at, Read.val_main_v11_apply, Read.val_main_cst_7_apply,
    Read.val_main_v14_apply, clamp_hi_at, Read.val_main_v13_apply, Read.val_main_cst_8_apply]
  rfl

/-- The larger of the two ends. -/
theorem ends_max_at :
    Read.val_main_v16 (F := Ideal) x1 x4 x5 (ix1 (scaleAt o q)) = max (highOf x1 x5 o q) (lowOf x1 x4 o q) := by
  rw [Read.val_main_v16_apply, high_at, low_at]
  rfl

/-- The smaller of the two ends. -/
theorem ends_min_at :
    Read.val_main_v17 (F := Ideal) x1 x4 x5 (ix1 (scaleAt o q)) = min (highOf x1 x5 o q) (lowOf x1 x4 o q) := by
  rw [Read.val_main_v17_apply, high_at, low_at]
  rfl

/-- Both ends are zero. -/
theorem degenerate_at :
    Read.val_main_v22 (F := Ideal) x1 x4 x5 (ix1 (scaleAt o q)) = degenerate (lowOf x1 x4 o q) (highOf x1 x5 o q) := by
  rw [Read.val_main_v22_apply, Read.val_main_v19_apply, ends_min_at, Read.val_main_v18_apply, Read.val_main_cst_9_apply,
    Read.val_main_v21_apply, ends_max_at, Read.val_main_v20_apply, Read.val_main_cst_10_apply]
  rfl

/-- The range's lower end. -/
theorem range_lo_at :
    Read.val_main_v23 (F := Ideal) x1 x4 x5 (ix1 (scaleAt o q)) = rangeLo (lowOf x1 x4 o q) (highOf x1 x5 o q) := by
  rw [Read.val_main_v23_apply, degenerate_at, Read.val_main_call2_v1_apply, Read.val_main_call2_v0_apply,
    Read.val_main_cst_11_apply, ends_min_at]
  rfl

/-- The range's upper end. -/
theorem range_hi_at :
    Read.val_main_v24 (F := Ideal) x1 x4 x5 (ix1 (scaleAt o q)) = rangeHi (lowOf x1 x4 o q) (highOf x1 x5 o q) := by
  rw [Read.val_main_v24_apply, degenerate_at, Read.val_main_call3_v1_apply, Read.val_main_call3_v0_apply,
    Read.val_main_cst_12_apply, ends_max_at]
  rfl

/-- The step `(hi - lo) / 15`. -/
theorem step_at :
    Read.val_main_v27 (F := Ideal) x1 x4 x5 (ix1 (scaleAt o q)) = step (lowOf x1 x4 o q) (highOf x1 x5 o q) := by
  rw [Read.val_main_v27_apply, Read.val_main_v25_apply, range_hi_at, range_lo_at, Read.val_main_v26_apply,
    Read.val_main_cst_13_apply]
  rfl

/-- The quotient `(-lo) / step` that is rounded to the zero point. -/
theorem zero_arg_at :
    Read.val_main_v29 (F := Ideal) x1 x4 x5 (ix1 (scaleAt o q))
      = Ideal.div (-(rangeLo (lowOf x1 x4 o q) (highOf x1 x5 o q))) (step (lowOf x1 x4 o q) (highOf x1 x5 o q)) := by
  rw [Read.val_main_v29_apply, Read.val_main_v28_apply, range_lo_at, step_at]
  rfl

/-- The zero point in its straight-through spelling. -/
theorem zero_pt_at :
    Read.val_main_v32 (F := Ideal) x1 x4 x5 (ix1 (scaleAt o q)) = zeroPtSte (lowOf x1 x4 o q) (highOf x1 x5 o q) := by
  rw [Read.val_main_v32_apply, Read.val_main_v31_apply, Read.val_main_v30_apply, zero_arg_at]
  rfl

/-! ## One entry of the quantized weights -/

/-- Entry `(32·o + q, l)` of the grouped result is the dequantized entry `l` of group `q` of row `o`. -/
theorem entry_at (l : Fin 128) :
    Read.val_main_v47 (F := Ideal) x1 x3 x4 x5 (ix2 (scaleAt o q) l)
      = dequantSte (step (lowOf x1 x4 o q) (highOf x1 x5 o q)) (zeroPtSte (lowOf x1 x4 o q) (highOf x1 x5 o q))
          (x1 (ix2 o (grpCol q l))) (x3 (ix2 o (grpCol q l))) := by
  rw [Read.val_main_v47_apply, Read.val_main_v46_apply, Read.val_main_v33_apply, idx_spread46, step_at,
    Read.val_main_v45_apply, Read.val_main_v43_apply, Read.val_main_call6_v4_apply, Read.val_main_call6_v3_apply,
    Read.val_main_cst_15_apply, Read.val_main_call6_v2_apply, Read.val_main_call6_v1_apply, Read.val_main_call6_v0_apply,
    Read.val_main_cst_14_apply, Read.val_main_v42_apply, Read.val_main_v40_apply, Read.val_main_v39_apply,
    Read.val_main_v38_apply, Read.val_main_v37_apply, Read.val_main_v36_apply, Read.val_main_v2_apply, idx_group_w,
    Read.val_main_v35_apply, Read.val_main_v33_apply, idx_spread35, step_at, Read.val_main_v3_apply, idx_group_v,
    Read.val_main_v41_apply, Read.val_main_v34_apply, idx_spread41, zero_pt_at, Read.val_main_v44_apply,
    Read.val_main_v34_apply, idx_spread44, zero_pt_at]
  rfl

end Stages

/-! ## The result -/

/-- The reference's last stage, as a function of the six argument arrays, is the plain arrangement of the result. -/
theorem ref_is_plain (x0 : (⟨S32x4096, .f32⟩ : BufTy).Contents (Elt Ideal)) (x1 : (⟨S4096x4096, .f32⟩ : BufTy).Contents (Elt Ideal))
    (x2 : (⟨S4096, .f32⟩ : BufTy).Contents (Elt Ideal)) (x3 : (⟨S4096x4096, .f32⟩ : BufTy).Contents (Elt Ideal))
    (x4 x5 : (⟨S131072, .f32⟩ : BufTy).Contents (Elt Ideal)) :
    Read.val_main_v53 (F := Ideal) x0 x1 x2 x3 x4 x5 = Cert.Quant.outPlain x0 x1 x2 x3 x4 x5 := by
  funext i
  obtain ⟨a, o, rfl⟩ : ∃ (a : Fin 32) (o : Fin 4096), i = ix2 a o := ⟨i 0, i 1, eq_ix2 i⟩
  rw [Read.val_main_v53_apply, Read.val_main_v50_apply, Read.val_main_v52_apply, Read.val_main_v51_apply, idx_bias]
  show (∑ k : Fin 4096, _) + x2 (ix1 o) = (∑ c : Fin 4096, x0 (ix2 a c) * wqSte x1 x3 x4 x5 o c) + x2 (ix1 o)
  congr 1
  refine Finset.sum_congr rfl fun k _ => ?_
  rw [lidx_dot, ridx_dot, Read.val_main_v49_apply, idx_transpose, Read.val_main_v48_apply, idx_regroup, entry_at,
    grpCol_grpOf_lane]
  rfl

end Cert.ReferenceIdeal.RefValue

end
-- ==== Proof.Literals.lean ====
/-
  The float literals the two programs spell, as the extended reals their patterns denote: the clamp ends -1 and 0,
  the unit 1 added to a clamped scale, the number of quantization steps 15, and the two infinities the group
  minimum and maximum start from. Stated once here so that no other module unfolds the pattern decoder.
-/
import Idealize.ShloMosaic.PureOps.Ideal

noncomputable section

namespace Cert.Literals

open Idealize.ShloMosaic

/-- `+0.0` denotes `0`. -/
theorem ofBits_zero : Ideal.ofBits .f32 0x00000000#32 = 0 := by
  simp [Ideal.ofBits, Ideal.ieee]

/-- `1.0` denotes `1`. -/
theorem ofBits_one : Ideal.ofBits .f32 0x3F800000#32 = ((1 : ℝ) : EReal) := by
  simp [Ideal.ofBits, Ideal.ieee, -EReal.coe_mul]; norm_num

/-- `-1.0` denotes `-1`. -/
theorem ofBits_neg_one : Ideal.ofBits .f32 0xBF800000#32 = ((-1 : ℝ) : EReal) := by
  simp [Ideal.ofBits, Ideal.ieee, -EReal.coe_mul]; norm_num

/-- `15.0`, the number of quantization steps `2^4 - 1`, denotes `15`. -/
theorem ofBits_fifteen : Ideal.ofBits .f32 0x41700000#32 = ((15 : ℝ) : EReal) := by
  simp [Ideal.ofBits, Ideal.ieee, -EReal.coe_mul]; norm_num

/-- The pattern of `+inf`, from which a minimum starts, denotes `⊤`. -/
theorem ofBits_pos_inf : Ideal.ofBits .f32 0x7F800000#32 = ⊤ := by
  simp [Ideal.ofBits, Ideal.ieee]

/-- The pattern of `-inf`, from which a maximum starts, denotes `⊥`. -/
theorem ofBits_neg_inf : Ideal.ofBits .f32 0xFF800000#32 = ⊥ := by
  simp [Ideal.ofBits, Ideal.ieee]

end Cert.Literals

end
-- ==== Proof.QuantLaw.lean ====
/-
  The scalar law: on real inputs the straight-through spelling `(round(y) - y) + y` of a rounding is `round(y)`,
  because `y` is then a real number. That needs the quantization step to be a positive real: the lower range end is
  never positive and the upper one never negative, so they coincide only at zero, where the range is replaced by [-1, 1].
-/
import proofs.«106327_j33122787787467_1_alg».proof.Proof.QuantSpec
import proofs.«106327_j33122787787467_1_alg».proof.Proof.Literals
import Mathlib.Data.Finset.Fold

noncomputable section

namespace Cert.Quant

open Idealize.ShloMosaic Cert.Literals

/-! ## The embedding of the reals keeps minima and maxima -/

private theorem coe_min (x y : ℝ) : ((min x y : ℝ) : EReal) = min (x : EReal) (y : EReal) :=
  EReal.coe_strictMono.monotone.map_min

private theorem coe_max (x y : ℝ) : ((max x y : ℝ) : EReal) = max (x : EReal) (y : EReal) :=
  EReal.coe_strictMono.monotone.map_max

/-! ## Minimum and maximum of finitely many reals -/

/-- Over a nonempty index set the minimum started from `⊤` is the least entry: `⊤` is absorbed by the first one. -/
theorem fold_min_coe {ι : Type} (f : ι → ℝ) (s : Finset ι) (hs : s.Nonempty) :
    ∃ r : ℝ, s.fold min (⊤ : EReal) (fun l => (f l : EReal)) = (r : EReal) := by
  induction hs using Finset.Nonempty.cons_induction with
  | singleton a => exact ⟨f a, by rw [Finset.fold_singleton, min_top_right]⟩
  | cons a s ha _ ih =>
    obtain ⟨r, hr⟩ := ih
    exact ⟨min (f a) r, by rw [Finset.fold_cons, hr, coe_min]⟩

/-- Over a nonempty index set the maximum started from `⊥` is the greatest entry. -/
theorem fold_max_coe {ι : Type} (f : ι → ℝ) (s : Finset ι) (hs : s.Nonempty) :
    ∃ r : ℝ, s.fold max (⊥ : EReal) (fun l => (f l : EReal)) = (r : EReal) := by
  induction hs using Finset.Nonempty.cons_induction with
  | singleton a => exact ⟨f a, by rw [Finset.fold_singleton, max_bot_right]⟩
  | cons a s ha _ ih =>
    obtain ⟨r, hr⟩ := ih
    exact ⟨max (f a) r, by rw [Finset.fold_cons, hr, coe_max]⟩

/-- The minimum of finitely many reals, started from +inf, is a real. -/
theorem fold_min_real (f : Fin 128 → ℝ) :
    ∃ r : ℝ, (Finset.univ : Finset (Fin 128)).fold min (lit 0x7F800000#32) (fun l => (f l : EReal)) = (r : EReal) := by
  simp only [lit, ofBits_pos_inf]
  exact fold_min_coe f Finset.univ ⟨0, Finset.mem_univ _⟩

/-- The maximum of finitely many reals, started from -inf, is a real. -/
theorem fold_max_real (f : Fin 128 → ℝ) :
    ∃ r : ℝ, (Finset.univ : Finset (Fin 128)).fold max (lit 0xFF800000#32) (fun l => (f l : EReal)) = (r : EReal) := by
  simp only [lit, ofBits_neg_inf]
  exact fold_max_coe f Finset.univ ⟨0, Finset.mem_univ _⟩

/-! ## The range ends and the step on real data -/

/-- A real scale clamped to [-1, 0] is the real `min 0 (max (-1) s)`. -/
theorem clampScale_coe (s : ℝ) : clampScale (s : EReal) = ((min 0 (max (-1) s) : ℝ) : EReal) := by
  simp only [clampScale, lit, ofBits_zero, ofBits_neg_one]
  rw [coe_min, coe_max, EReal.coe_zero]

/-- The clamped scale plus one lies in [0, 1]; only its sign is used. -/
theorem clamp_add_one_nonneg (s : ℝ) : 0 ≤ min 0 (max (-1) s) + 1 := by
  have h : (-1 : ℝ) ≤ min 0 (max (-1) s) := le_min (by norm_num) (le_max_left _ _)
  linarith

/-- The lower range end of real data is a real that is never positive: `min(gmin, 0) ≤ 0` times a factor `≥ 0`. -/
theorem lowEnd_coe (gmin mn : ℝ) : ∃ A : ℝ, A ≤ 0 ∧ lowEnd (gmin : EReal) (mn : EReal) = (A : EReal) := by
  refine ⟨min gmin 0 * (min 0 (max (-1) mn) + 1),
    mul_nonpos_of_nonpos_of_nonneg (min_le_right _ _) (clamp_add_one_nonneg mn), ?_⟩
  simp only [lowEnd, clampScale_coe, lit, ofBits_zero, ofBits_one]
  rw [EReal.coe_mul, EReal.coe_add, coe_min gmin 0, EReal.coe_zero]

/-- The upper range end of real data is a real that is never negative. -/
theorem highEnd_coe (gmax mx : ℝ) : ∃ B : ℝ, 0 ≤ B ∧ highEnd (gmax : EReal) (mx : EReal) = (B : EReal) := by
  refine ⟨max gmax 0 * (min 0 (max (-1) mx) + 1),
    mul_nonneg (le_max_right _ _) (clamp_add_one_nonneg mx), ?_⟩
  simp only [highEnd, clampScale_coe, lit, ofBits_zero, ofBits_one]
  rw [EReal.coe_mul, EReal.coe_add, coe_max gmax 0, EReal.coe_zero]

/-- With `A ≤ 0 ≤ B` the range is `[A, B]`, or `[-1, 1]` when `A = B = 0`; either way its ends are reals `L < H`. -/
theorem range_coe (A B : ℝ) (hA : A ≤ 0) (hB : 0 ≤ B) :
    ∃ L H : ℝ, L < H ∧ rangeLo (A : EReal) (B : EReal) = (L : EReal) ∧ rangeHi (A : EReal) (B : EReal) = (H : EReal) := by
  have hmin : min (B : EReal) (A : EReal) = (A : EReal) := by rw [← coe_min, min_eq_right (hA.trans hB)]
  have hmax : max (B : EReal) (A : EReal) = (B : EReal) := by rw [← coe_max, max_eq_left (hA.trans hB)]
  simp only [rangeLo, rangeHi, degenerate, hmin, hmax, lit, ofBits_zero, ofBits_one, ofBits_neg_one,
    Scalar.select, IntOp.andi, Ideal.cmp, EReal.coe_eq_zero]
  by_cases hA0 : A = 0
  · by_cases hB0 : B = 0
    · exact ⟨-1, 1, by norm_num, by simp [hA0, hB0], by simp [hA0, hB0]⟩
    · exact ⟨A, B, lt_of_le_of_ne (hA.trans hB) (fun h => hB0 (by rw [← h, hA0])), by simp [hB0], by simp [hB0]⟩
  · exact ⟨A, B, lt_of_le_of_ne (hA.trans hB) (fun h => hA0 (le_antisymm hA (h ▸ hB))), by simp [hA0], by simp [hA0]⟩

/-- On real group data the lower range end is a real and the step a positive real. -/
theorem exists_step (gmin gmax mn mx : ℝ) :
    ∃ L s : ℝ, 0 < s ∧ rangeLo (lowEnd gmin mn) (highEnd gmax mx) = (L : EReal)
      ∧ step (lowEnd gmin mn) (highEnd gmax mx) = (s : EReal) := by
  obtain ⟨A, hA, hAe⟩ := lowEnd_coe gmin mn
  obtain ⟨B, hB, hBe⟩ := highEnd_coe gmax mx
  obtain ⟨L, H, hLH, hL, hH⟩ := range_coe A B hA hB
  refine ⟨L, (H - L) * (1 / 15), mul_pos (sub_pos.2 hLH) (by norm_num), by rw [hAe, hBe, hL], ?_⟩
  rw [hAe, hBe]
  simp only [step, hL, hH, lit, ofBits_fifteen]
  rw [Ideal.div_coe (by norm_num : (15 : ℝ) ≠ 0), EReal.coe_mul, EReal.coe_sub]

/-! ## The straight-through identity -/

/-- Subtracting a real and adding it back changes nothing, at the infinities too (they absorb a real). -/
theorem sub_add_coe (r : EReal) (y : ℝ) : (r - (y : EReal)) + (y : EReal) = r := by
  induction r using EReal.rec with
  | bot => rw [EReal.bot_sub, EReal.bot_add]
  | coe a => rw [← EReal.coe_sub, ← EReal.coe_add, sub_add_cancel]
  | top => rw [EReal.top_sub_coe, EReal.top_add_coe]

/-- On real group data the zero point's two spellings agree. -/
theorem zeroPtSte_eq (gmin gmax mn mx : ℝ) :
    zeroPtSte (lowEnd gmin mn) (highEnd gmax mx) = zeroPt (lowEnd gmin mn) (highEnd gmax mx) := by
  obtain ⟨L, s, hs, hL, hS⟩ := exists_step gmin gmax mn mx
  have hy : Ideal.div (-(L : EReal)) (s : EReal) = ((-L * (1 / s) : ℝ) : EReal) := by
    rw [Ideal.div_coe hs.ne', EReal.coe_mul, EReal.coe_neg]
  simp only [zeroPtSte, zeroPt, hL, hS, lit, ofBits_zero, zero_sub, hy]
  exact sub_add_coe _ _

/-- On real group data and a real entry the dequantized value's two spellings agree, whatever the zero point. -/
theorem dequantSte_eq (gmin gmax mn mx w v : ℝ) (z : EReal) :
    dequantSte (step (lowEnd gmin mn) (highEnd gmax mx)) z w v = dequant (step (lowEnd gmin mn) (highEnd gmax mx)) z w v := by
  obtain ⟨_, s, hs, _, hS⟩ := exists_step gmin gmax mn mx
  have hy : Ideal.div (w : EReal) (s : EReal) + (v : EReal) = ((w * (1 / s) + v : ℝ) : EReal) := by
    rw [Ideal.div_coe hs.ne', EReal.coe_add, EReal.coe_mul]
  simp only [dequantSte, dequant, hS, hy, sub_add_coe]

end Cert.Quant

end
-- ==== Proof.QuantBridge.lean ====
/-
  The blocked arrangement and the plain one give the same array on finite weights, offsets and scales: entry by entry
  the quantized weight's two spellings agree (the scalar law), and a sum over 4096 columns is the sum of its four runs
  of 1024 added one after the other to 0 (addition on the extended reals is commutative and associative).
-/
import proofs.«106327_j33122787787467_1_alg».proof.Proof.QuantLaw
import Mathlib.Logic.Equiv.Fin.Basic
import Mathlib.Algebra.BigOperators.Fin
import Mathlib.Algebra.BigOperators.Group.Finset.Sigma

noncomputable section

namespace Cert.Quant

open Idealize.ShloMosaic Idealize.ShloMosaic.ValueIdx

/-- A group of a real-valued weight array is a real-valued row. -/
theorem grpRow_real {W : SW.Idx → EReal} (hW : AllReal W) (o : Fin 4096) (q : Fin 32) :
    ∃ f : Fin 128 → ℝ, grpRow W o q = fun l => (f l : EReal) := by
  choose g hg using hW
  exact ⟨fun l => g (ix2 o (grpCol q l)), funext fun l => hg _⟩

/-- Entry by entry the quantized weight's two spellings agree on real data. -/
theorem wqSte_eq_wq {W V : SW.Idx → EReal} {mn mx : SS.Idx → EReal} (hW : AllReal W) (hV : AllReal V) (hmn : AllReal mn)
    (hmx : AllReal mx) (o c : Fin 4096) : wqSte W V mn mx o c = wq W V mn mx o c := by
  obtain ⟨f, hf⟩ := grpRow_real hW o (grpOf c)
  obtain ⟨gmin, hgmin⟩ := fold_min_real f
  obtain ⟨gmax, hgmax⟩ := fold_max_real f
  obtain ⟨smn, hsmn⟩ := hmn (ix1 (scaleAt o (grpOf c)))
  obtain ⟨smx, hsmx⟩ := hmx (ix1 (scaleAt o (grpOf c)))
  obtain ⟨w, hw⟩ := hW (ix2 o c)
  obtain ⟨v, hv⟩ := hV (ix2 o c)
  have hlo : lowOf W mn o (grpOf c) = lowEnd gmin smn := by
    unfold lowOf grpMin
    rw [hf, hgmin, hsmn]
  have hhi : highOf W mx o (grpOf c) = highEnd gmax smx := by
    unfold highOf grpMax
    rw [hf, hgmax, hsmx]
  unfold wqSte wq
  rw [hlo, hhi, hw, hv, zeroPtSte_eq, dequantSte_eq]

/-- Column `1024·k + l` is where the pairing of `Fin 4 × Fin 1024` with `Fin 4096` sends `(k, l)`. -/
theorem runCol_eq (k : Fin 4) (l : Fin 1024) : runCol k l = (finProdFinEquiv (k, l) : Fin (4 * 1024)) := by
  apply Fin.ext
  show 1024 * k.val + l.val = l.val + 1024 * k.val
  omega

/-- A sum over the 4096 columns is its four runs of 1024 added one after the other to 0. -/
theorem sum_runs (f : Fin 4096 → EReal) :
    ∑ c : Fin 4096, f c
      = (((0 + ∑ l : Fin 1024, f (runCol 0 l)) + ∑ l : Fin 1024, f (runCol 1 l)) + ∑ l : Fin 1024, f (runCol 2 l))
          + ∑ l : Fin 1024, f (runCol 3 l) := by
  have h : ∑ c : Fin 4096, f c = ∑ k : Fin 4, ∑ l : Fin 1024, f (runCol k l) := by
    rw [← Fintype.sum_prod_type']
    exact (Fintype.sum_equiv (finProdFinEquiv (m := 4) (n := 1024)) (fun p => f (runCol p.1 p.2)) f
      (fun p => by rw [runCol_eq])).symm
  rw [h, Fin.sum_univ_four, zero_add]

/-- One entry's dot product: the four runs added one after the other to 0 are the sum over all columns. -/
theorem runs_eq_dot (X : SX.Idx → EReal) {W V : SW.Idx → EReal} {mn mx : SS.Idx → EReal} (hW : AllReal W) (hV : AllReal V)
    (hmn : AllReal mn) (hmx : AllReal mx) (a : Fin 32) (o : Fin 4096) :
    (((0 + partialDot X W V mn mx a o 0) + partialDot X W V mn mx a o 1) + partialDot X W V mn mx a o 2)
        + partialDot X W V mn mx a o 3
      = ∑ c : Fin 4096, X (ix2 a c) * wqSte W V mn mx o c := by
  rw [sum_runs (fun c => X (ix2 a c) * wqSte W V mn mx o c)]
  simp only [wqSte_eq_wq hW hV hmn hmx]
  rfl

/-- The two arrangements are one array. -/
theorem outBlocked_eq_outPlain (X : SX.Idx → EReal) {W : SW.Idx → EReal} (B : SB.Idx → EReal) {V : SW.Idx → EReal}
    {mn mx : SS.Idx → EReal} (hW : AllReal W) (hV : AllReal V) (hmn : AllReal mn) (hmx : AllReal mx) :
    outBlocked X W B V mn mx = outPlain X W B V mn mx := by
  funext i
  exact congrArg (· + B (ix1 (i 1))) (runs_eq_dot X hW hV hmn hmx (i 0) (i 1))

end Cert.Quant

end
-- ==== Proof.FiniteInputs.lean ====
/-
  What the precondition says: every entry of each of the six argument arrays is a real number. The printed predicate
  is the conjunction, over the arrays, of "every |entry| is below +inf".

  On the extended reals the absolute value is `max x (-x)`. It equals `⊤` exactly at the two infinities
  (`max ⊤ _ = ⊤`, and `-⊥ = ⊤`), so `max x (-x) < ⊤` leaves only the real numbers. A conjunction of one-bit words
  is 1 only if every conjunct is 1, and an "all" over an array is 1 only if every element is 1; so the predicate
  being 1 gives the strict inequality at every entry of every array.
-/
import proofs.«106327_j33122787787467_1_alg».proof.Pre_finite_inputs
import proofs.«106327_j33122787787467_1_alg».proof.Proof.QuantSpec
import proofs.«106327_j33122787787467_1_alg».proof.Proof.Literals
import Idealize.ShloMosaic.Lib.ReduceAll

noncomputable section

namespace Cert.Quant

open Idealize.ShloMosaic

/-- An extended real whose absolute value `max x (-x)` is strictly below `⊤` is a real number: at `⊤` the maximum is
    `⊤`, and at `⊥` the negation is `⊤`. -/
theorem exists_real_of_abs_lt_top (x : EReal) (h : max x (-x) < ⊤) : ∃ r : ℝ, x = (r : EReal) := by
  induction x using EReal.rec with
  | bot => simp at h
  | coe r => exact ⟨r, rfl⟩
  | top => simp at h

/-- The ordered "less than" comparison of two extended reals is the one-bit word 1 only if the first is below the second. -/
theorem lt_of_cmp_olt {x y : EReal} (h : Ideal.cmp .olt x y = 1#1) : x < y := by
  simp only [Ideal.cmp] at h
  by_contra hn
  rw [decide_eq_false hn] at h
  exact absurd h (by decide)

/-- One array: if "all |entries| < +inf", reduced over every axis to a single one-bit word, is 1, then every entry
    is a real number. The scalar `+inf` broadcast to the array's shape reads as the literal at every index. -/
theorem allReal_of_all_abs_lt {S : Shape} {axes : List (Fin S.rank)} (A : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (e : Host.reduce IntOp.andi
          (cmpf .olt (Host.absf A) (broadcastInDim S ![] hb (constant Cert.Pre_finite_inputs.S_ .f32 0x7F800000#32)))
          (constantI Cert.Pre_finite_inputs.S_ 1 1#1) hr hu ValueIdx.ix0 = 1#1) :
    AllReal (S := S) A := by
  haveI : Subsingleton Cert.Pre_finite_inputs.S_.Idx := ⟨fun a b => funext fun d => d.elim0⟩
  intro i
  have hi := Host.reduce_andi_all _ _ hr hu _ e i
  have hc : Ideal.cmp .olt (max (A i) (-(A i))) (Ideal.ofBits .f32 0x7F800000#32) = 1#1 := hi
  rw [Cert.Literals.ofBits_pos_inf] at hc
  exact exists_real_of_abs_lt_top _ (lt_of_cmp_olt hc)

/-- If the printed finiteness predicate is all ones, every entry of every argument array is a real number. -/
theorem allReal_of_finite [Cert.Pre_finite_inputs.Facts]
    (a0 : FVec Ideal Cert.Pre_finite_inputs.S32x4096 .f32) (a1 : FVec Ideal Cert.Pre_finite_inputs.S4096x4096 .f32)
    (a2 : FVec Ideal Cert.Pre_finite_inputs.S4096 .f32) (a3 : FVec Ideal Cert.Pre_finite_inputs.S4096x4096 .f32)
    (a4 : FVec Ideal Cert.Pre_finite_inputs.S131072 .f32) (a5 : FVec Ideal Cert.Pre_finite_inputs.S131072 .f32)
    (h : Cert.Pre_finite_inputs.fn (F := Ideal) a0 a1 a2 a3 a4 a5 = fun _ => 1#1) :
    AllReal (S := SX) a0 ∧ AllReal (S := SW) a1 ∧ AllReal (S := SB) a2 ∧ AllReal (S := SW) a3 ∧ AllReal (S := SS) a4
      ∧ AllReal (S := SS) a5 := by
  have h0 := congrFun h ValueIdx.ix0
  dsimp only [Cert.Pre_finite_inputs.fn, Cert.Pre_finite_inputs.fn_part1] at h0
  -- the predicate is ((((t0 ∧ t1) ∧ t2) ∧ t3) ∧ t4) ∧ t5: peel the conjuncts off from the right
  obtain ⟨h01234, e5⟩ := IntOp.andi_eq_one.1 h0
  obtain ⟨h0123, e4⟩ := IntOp.andi_eq_one.1 h01234
  obtain ⟨h012, e3⟩ := IntOp.andi_eq_one.1 h0123
  obtain ⟨h01, e2⟩ := IntOp.andi_eq_one.1 h012
  obtain ⟨e0, e1⟩ := IntOp.andi_eq_one.1 h01
  exact ⟨allReal_of_all_abs_lt a0 _ _ _ e0, allReal_of_all_abs_lt a1 _ _ _ e1, allReal_of_all_abs_lt a2 _ _ _ e2,
    allReal_of_all_abs_lt a3 _ _ _ e3, allReal_of_all_abs_lt a4 _ _ _ e4, allReal_of_all_abs_lt a5 _ _ _ e5⟩

end Cert.Quant

end
-- ==== Proof.lean ====
/- A group-wise 4-bit fake-quantized linear layer, `x · wqᵀ + bias`, computed by a blocked kernel and by a plain program.

   Each weight row is cut into 32 groups of 128 entries. A group's range ends come from its minimum and maximum and
   two learned scales clamped to [-1, 0]; the step is a fifteenth of the range, the zero point the rounded quotient
   of the negated lower end by the step, and an entry is rounded onto the 16 levels and mapped back.

   The kernel walks an 8 × 4 grid: column tile `n` of the result (512 weight rows) against run `k` of the
   contraction (1024 columns, eight groups). At each point it quantizes the 512 × 1024 block group by group, multiplies
   the 32 × 1024 block of `x` into it, and adds the product to an accumulator it carries along the run (zeroed at the
   run's first point); at the run's last point it writes accumulator plus bias into the result's tile.

   At the extended reals the two programs differ only in spelling: the plain program writes a rounding in the
   straight-through form `(round(y) - y) + y` and negates by `-lo` where the kernel writes `round(y)` and `0 - lo`,
   and it sums a row's 4096 products at once where the kernel adds four runs of 1024 to 0. The first pair agrees
   wherever `y` is a real number, which the precondition gives: on finite inputs the step is a positive real, since the
   lower range end is never positive and the upper one never negative, and a range with both ends 0 is replaced by
   [-1, 1]. The second is commutativity and associativity of addition.

   The kernel's result array is read off its frame run: what each control case leaves (Pieces), the accumulator over
   a run (Accumulate), the eight groups and the product entry by entry (GroupsLow, GroupsHigh, PartialProduct), the
   blocks in terms of the argument arrays (BlockReads), and the tiles covering the array (Final). The plain program's
   result is read one operation at a time (RefPlain). The two arrangements are one array (QuantLaw, QuantBridge)
   under the precondition (FiniteInputs). -/
import proofs.«106327_j33122787787467_1_alg».proof.Defs
import proofs.«106327_j33122787787467_1_alg».proof.Proof.Gen.Kernel
import proofs.«106327_j33122787787467_1_alg».proof.Proof.Gen.Kernel.Skeleton
import proofs.«106327_j33122787787467_1_alg».proof.Proof.Gen.Kernel.Launch
import proofs.«106327_j33122787787467_1_alg».proof.Proof.Gen.Kernel.Points
import proofs.«106327_j33122787787467_1_alg».proof.Proof.Gen.Kernel.Frame
import proofs.«106327_j33122787787467_1_alg».proof.Proof.Gen.KernelIdeal
import proofs.«106327_j33122787787467_1_alg».proof.Proof.Gen.KernelIdeal.Skeleton
import proofs.«106327_j33122787787467_1_alg».proof.Proof.Gen.KernelIdeal.Launch
import proofs.«106327_j33122787787467_1_alg».proof.Proof.Gen.KernelIdeal.Points
import proofs.«106327_j33122787787467_1_alg».proof.Proof.Gen.KernelIdeal.Frame
import proofs.«106327_j33122787787467_1_alg».proof.Proof.Gen.ReferenceIdeal
import proofs.«106327_j33122787787467_1_alg».proof.Proof.Gen.Pre_finite_inputs
import proofs.«106327_j33122787787467_1_alg».proof.Proof.Gen.KernelIdeal.Value
import proofs.«106327_j33122787787467_1_alg».proof.Proof.Gen.ReferenceIdeal.Run
import proofs.«106327_j33122787787467_1_alg».proof.Proof.Gen.ReferenceIdeal.Read
import proofs.«106327_j33122787787467_1_alg».proof.Proof.Final
import proofs.«106327_j33122787787467_1_alg».proof.Proof.RefPlain
import proofs.«106327_j33122787787467_1_alg».proof.Proof.QuantBridge
import proofs.«106327_j33122787787467_1_alg».proof.Proof.FiniteInputs
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read at the extended reals. -/
theorem frame_kernel_ideal : Cert.frame_KernelIdeal := fun m ρ _ => Cert.KernelIdeal.Gen.frame m ρ

/-- The plain program runs and leaves its arguments as they were: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on finite arguments both programs end with the same array: the blocked arrangement
    the kernel leaves is the plain arrangement the reference leaves. -/
theorem algebraic : Cert.algebraic_KernelIdeal_ReferenceIdeal := by
  intro m ρ m' ρ' hpre hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨_, hW, _, hV, hmn, hmx⟩ := Cert.Quant.allReal_of_finite _ _ _ _ _ _ (hpre c)
  rw [Cert.ReferenceIdeal.Read.val_main_v53_eq, Cert.ReferenceIdeal.RefValue.ref_is_plain, (hagree c).1, (hagree c).2.1,
    (hagree c).2.2.1, (hagree c).2.2.2.1, (hagree c).2.2.2.2.1, (hagree c).2.2.2.2.2]
  exact (Cert.Quant.outBlocked_eq_outPlain _ _ hW hV hmn hmx).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
